-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S256 .f32) (main_arg11 : FVec F S256x1 .f32) (main_arg12 : FVec F S1 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg11
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg7 : FVec F S256x256 .f32) (main_arg8 : FVec F S256 .f32) (main_arg9 : FVec F S256x256 .f32) (main_arg10 : FVec F S256 .f32) (main_arg11 : FVec F S256x1 .f32) (main_arg12 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg9
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg10 main_arg11 main_arg12 main_v33

def fn {F : FTy → Type} [FloatOps F] (main_arg0 : FVec F S50000x128 .f32) (main_arg1 : IVec S800000 32) (main_arg2 : IVec S800000 32) (main_arg3 : FVec F S800000 .f32) (main_arg4 : IVec S50000 32) (main_arg5 : FVec F S128x256 .f32) (main_arg6 : FVec F S256 .f32) (main_arg7 : FVec F S256x256 .f32) (main_arg8 : FVec F S256 .f32) (main_arg9 : FVec F S256x256 .f32) (main_arg10 : FVec F S256 .f32) (main_arg11 : FVec F S256x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x256 .f32 := Host.absf main_arg5
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_arg11 main_arg12 main_v13 main_v16
-- ==== Kernel.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S50000x1 : Shape := ⟨2, ![50000, 1]⟩
abbrev S1x1 : Shape := ⟨2, ![1, 1]⟩
abbrev S128x1 : Shape := ⟨2, ![128, 1]⟩
abbrev S5000x1 : Shape := ⟨2, ![5000, 1]⟩
abbrev S128x5000 : Shape := ⟨2, ![128, 5000]⟩

abbrev nBuf : Space → Nat
  | .hbm => 53
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000, .i32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S1x256, .f32⟩
  | .hbm, ⟨30, _⟩ => ⟨S50000x256, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x256, .f32⟩
  | .hbm, ⟨40, _⟩ => ⟨S800000x1, .f32⟩
  | .hbm, ⟨41, _⟩ => ⟨S800000x256, .f32⟩
  | .hbm, ⟨42, _⟩ => ⟨S800000x256, .f32⟩
  | .hbm, ⟨43, _⟩ => ⟨S_, .f32⟩
  | .hbm, ⟨44, _⟩ => ⟨S50000x256, .f32⟩
  | .hbm, ⟨45, _⟩ => ⟨S800000x1, .i32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x1, .i32⟩
  | .hbm, ⟨50, _⟩ => ⟨S1x256, .f32⟩
  | .hbm, ⟨51, _⟩ => ⟨S1x1, .f32⟩
  | .hbm, ⟨52, _⟩ => ⟨S128x1, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x1, .i32⟩
  | .local _ .vmem, ⟨15, _⟩ => ⟨S5000x1, .i32⟩
  | .local _ .vmem, ⟨16, _⟩ => ⟨S256x256, .f32⟩
  | .local _ .vmem, ⟨17, _⟩ => ⟨S1x256, .f32⟩
  | .local _ .vmem, ⟨18, _⟩ => ⟨S256x1, .f32⟩
  | .local _ .vmem, ⟨19, _⟩ => ⟨S1x1, .f32⟩
  | .local _ .vmem, ⟨20, _⟩ => ⟨S128x1, .f32⟩
  | .local _ .vmem, ⟨21, _⟩ => ⟨S128x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v21 : BitVec 1 := Scalar.cmpi .eq arg0 c9_i32
  let v22 : BitVec 32 := Scalar.extui v21
  let c0_i32_8 : BitVec 32 := 0#32
  let v23 : BitVec 1 := Scalar.cmpi .ne v22 c0_i32_8
  v23

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S50000_S50000x1 : S50000.ShapeCasts S50000x1
  shapeCasts_S1_S1x1 : S1.ShapeCasts S1x1
  shapeCasts_S128x256_S128x256 : S128x256.ShapeCasts S128x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  transposes_S5000x128_p1_0_S128x5000 : S5000x128.Transposes [1, 0] S128x5000
  broadcasts_S1x256_S128x256 : S1x256.Broadcasts S128x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  inb_S128x1_S128x1_0_0 : ∀ a, (![0, 0] : Fin 2 → Nat) a + S128x1.size a ≤ S128x1.size a
  h_S128x1 : 0 < S128x1.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S128x5000_S5000x256_S128x256_1_0_0_1_n_n_wf : DotDims.WF S128x5000 S5000x256 S128x256 [1] [0] [0] [1] [] []
  dot_S128x256_S256x256_S128x256_1_0_0_1_n_n_wf : DotDims.WF S128x256 S256x256 S128x256 [1] [0] [0] [1] [] []
  dot_S128x256_S256x1_S128x1_1_0_0_1_n_n_wf : DotDims.WF S128x256 S256x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .i32 = 32 ∨ (Rect.block (s := S50000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x1.size a ≤ S256x1.size a
  hwx2_4 : ∀ i : grid2.Coords, EltTy.bits .f32 = 32 ∨ (Rect.block (s := S256x1) S256x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S128x5000_S5000x256_S128x256_1_0_0_1_n_n : DotDims S128x5000 S5000x256 S128x256 where
  lhsContracting := [1]
  rhsContracting := [0]
  lhsNonContracting := [0]
  rhsNonContracting := [1]
  lhsBatch := []
  rhsBatch := []
  wf := dot_S128x5000_S5000x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S256x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33) S128x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x1 : Shape := ⟨2, ![50000, 1]⟩
abbrev S128x1 : Shape := ⟨2, ![128, 1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S50000, .i32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S50000x256, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x256, .f32⟩
  | .hbm, ⟨23, _⟩ => ⟨S800000x1, .f32⟩
  | .hbm, ⟨24, _⟩ => ⟨S800000x256, .f32⟩
  | .hbm, ⟨25, _⟩ => ⟨S800000x256, .f32⟩
  | .hbm, ⟨26, _⟩ => ⟨S_, .f32⟩
  | .hbm, ⟨27, _⟩ => ⟨S50000x256, .f32⟩
  | .hbm, ⟨28, _⟩ => ⟨S800000x1, .i32⟩
  | .hbm, ⟨29, _⟩ => ⟨S50000x256, .f32⟩
  | .hbm, ⟨30, _⟩ => ⟨S1x256, .f32⟩
  | .hbm, ⟨31, _⟩ => ⟨S50000x256, .f32⟩
  | .hbm, ⟨32, _⟩ => ⟨S50000x256, .f32⟩
  | .hbm, ⟨33, _⟩ => ⟨S_, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x256, .f32⟩
  | .hbm, ⟨46, _⟩ => ⟨S800000x1, .f32⟩
  | .hbm, ⟨47, _⟩ => ⟨S800000x256, .f32⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S128x256, .f32⟩
  | .hbm, ⟨61, _⟩ => ⟨S50000x1, .i32⟩
  | .hbm, ⟨62, _⟩ => ⟨S128x256, .f32⟩
  | .hbm, ⟨63, _⟩ => ⟨S128x256, .f32⟩
  | .hbm, ⟨64, _⟩ => ⟨S1x256, .f32⟩
  | .hbm, ⟨65, _⟩ => ⟨S128x256, .f32⟩
  | .hbm, ⟨66, _⟩ => ⟨S128x256, .f32⟩
  | .hbm, ⟨67, _⟩ => ⟨S_, .f32⟩
  | .hbm, ⟨68, _⟩ => ⟨S128x256, .f32⟩
  | .hbm, ⟨69, _⟩ => ⟨S128x256, .f32⟩
  | .hbm, ⟨70, _⟩ => ⟨S128x1, .f32⟩
  | .hbm, ⟨71, _⟩ => ⟨S1x1, .f32⟩
  | .hbm, ⟨72, _⟩ => ⟨S128x1, .f32⟩
  | .hbm, ⟨73, _⟩ => ⟨S128x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_cst : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call2_cst : Ref sig .tc := ⟨.hbm, 67, rfl⟩
abbrev main_call2_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S128x256 : S_.BroadcastsInDim S128x256 (![] : Fin 0 → Fin S128x256.rank)
  bcast_S50000_S50000x1_0 : S50000.BroadcastsInDim S50000x1 (![0] : Fin 1 → Fin S50000x1.rank)
  bcast_S1x256_S128x256_0_1 : S1x256.BroadcastsInDim S128x256 (![0, 1] : Fin 2 → Fin S128x256.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S128x256_S50000x1_S50000x256_1_0_0_1_wf : ScatterDims.WF S128x256 S50000x1 S50000x256 [1] [0] [0] 1
  dot_S128x256_S256x256_S128x256_1_0_0_1_n_n_wf : DotDims.WF S128x256 S256x256 S128x256 [1] [0] [0] [1] [] []
  dot_S128x256_S256x1_S128x1_1_0_0_1_n_n_wf : DotDims.WF S128x256 S256x1 S128x1 [1] [0] [0] [1] [] []

variable [Facts₀]

def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x1_S128x1_1_0_0_1_n_n : DotDims S128x256 S256x1 S128x1 where
  lhsContracting := [1]
  rhsContracting := [0]
  lhsNonContracting := [0]
  rhsNonContracting := [1]
  lhsBatch := []
  rhsBatch := []
  wf := dot_S128x256_S256x1_S128x1_1_0_0_1_n_n_wf

class Facts : Prop extends Facts₀ where

variable [Facts]
-- ==== Proof.K.R0.lean ====
/-
  The matrix-product launch 0 of the program, as the pipeline sees it: at each of its ten grid points the body
  loads a block of rows, the whole weight matrix and the bias row, and stores max(rows · weights + bias, 0)
  into the output block. Stated at a parameter `V`, the contents of the core's buffers when the launch is entered.
-/
import proofs.«413475_j11897059410286_1_alg».proof.Proof.Gen.Kernel.Launch
import proofs.«413475_j11897059410286_1_alg».proof.Proof.Gen.Kernel.Skeleton
import proofs.«413475_j11897059410286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S5000x128 := Rect.unit (s := S5000x128) ![0, 0] S5000x128.size inb_S5000x128_S5000x128_0_0
abbrev r0_w : Rect S128x256 := Rect.unit (s := S128x256) ![0, 0] S128x256.size inb_S128x256_S128x256_0_0
abbrev r0_b : Rect S1x256 := Rect.unit (s := S1x256) ![0, 0] S1x256.size inb_S1x256_S1x256_0_0
abbrev r0_o : Rect S5000x256 := Rect.unit (s := S5000x256) ![0, 0] S5000x256.size inb_S5000x256_S5000x256_0_0

/-- The output block after the body, from the three input blocks: its one store. -/
def out0_3 (x0 : Vec F S5000x128 .f32) (x1 : Vec F S128x256 .f32) (x2 : Vec F S1x256 .f32) : Vec F S5000x256 .f32 :=
  View.canon [⟨r0_o, k0_pay1 (View.ld x0 r0_x) (View.ld x1 r0_w) (View.ld x2 r0_b)⟩]

theorem cover0_3 (p0 : Vec F S5000x256 .f32) (y : S5000x256.Idx) :
    ∃ pc ∈ ([⟨r0_o, p0⟩] : List (View.Piece (Elt F) S5000x256 .f32)), y ∈ pc.1.set :=
  View.cover_of_tiled [⟨r0_o, p0⟩] S5000x256.size (by rfl) y

set_option maxHeartbeats 1000000 in
/-- The body on whole staging buffers: the inputs come back as they were, the output holds `out0_3` of them. -/
theorem sound_kernel0 (c : Dev nD) (E : Set ℕ) (i : grid0.Coords) (arg1 : Memref sig .tc .vmem S5000x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S5000x256 .f32) (harg4 : arg4.IsWhole)
    (x0 : Vec F S5000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The launch's proof data on core `c`: the arrays as the launch finds them; after the body each input's buffer at
    its block and the output's at `out0_3` of the input blocks; nothing carried between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The matrix-product launch 1 of the program, as the pipeline sees it: at each of its ten grid points the body
  loads a block of rows, the whole weight matrix and the bias row, and stores max(rows · weights + bias, 0)
  into the output block. Stated at a parameter `V`, the contents of the core's buffers when the launch is entered.
-/
import proofs.«413475_j11897059410286_1_alg».proof.Proof.Gen.Kernel.Launch
import proofs.«413475_j11897059410286_1_alg».proof.Proof.Gen.Kernel.Skeleton
import proofs.«413475_j11897059410286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S5000x256 := Rect.unit (s := S5000x256) ![0, 0] S5000x256.size inb_S5000x256_S5000x256_0_0
abbrev r1_w : Rect S256x256 := Rect.unit (s := S256x256) ![0, 0] S256x256.size inb_S256x256_S256x256_0_0
abbrev r1_b : Rect S1x256 := Rect.unit (s := S1x256) ![0, 0] S1x256.size inb_S1x256_S1x256_0_0
abbrev r1_o : Rect S5000x256 := Rect.unit (s := S5000x256) ![0, 0] S5000x256.size inb_S5000x256_S5000x256_0_0

/-- The output block after the body, from the three input blocks: its one store. -/
def out1_3 (x0 : Vec F S5000x256 .f32) (x1 : Vec F S256x256 .f32) (x2 : Vec F S1x256 .f32) : Vec F S5000x256 .f32 :=
  View.canon [⟨r1_o, k1_pay1 (View.ld x0 r1_x) (View.ld x1 r1_w) (View.ld x2 r1_b)⟩]

theorem cover1_3 (p0 : Vec F S5000x256 .f32) (y : S5000x256.Idx) :
    ∃ pc ∈ ([⟨r1_o, p0⟩] : List (View.Piece (Elt F) S5000x256 .f32)), y ∈ pc.1.set :=
  View.cover_of_tiled [⟨r1_o, p0⟩] S5000x256.size (by rfl) y

set_option maxHeartbeats 1000000 in
/-- The body on whole staging buffers: the inputs come back as they were, the output holds `out1_3` of them. -/
theorem sound_kernel1 (c : Dev nD) (E : Set ℕ) (i : grid1.Coords) (arg1 : Memref sig .tc .vmem S5000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S5000x256 .f32) (harg4 : arg4.IsWhole)
    (x0 : Vec F S5000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_bias_kernel i arg1 harg1 arg2 harg2 arg3 harg3 arg4 harg4) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The launch's proof data on core `c`: the arrays as the launch finds them; after the body each input's buffer at
    its block and the output's at `out1_3` of the input blocks; nothing carried between points; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2A.lean ====
/-
  The pooling launch as the pipeline sees it, first part: what its three kinds of grid point share, and the body's
  run at the first point. The body keeps a [128, 256] accumulator in a scratch buffer across its ten grid points:
  it clears it at the first point, adds the point's one-hot-transposed times rows product at every point, and at the
  last point applies the two dense layers to it and stores the [128, 1] result. Stated at a parameter `V`, the
  contents of the core's buffers when the launch is entered.
-/
import proofs.«413475_j11897059410286_1_alg».proof.Proof.Gen.Kernel.Launch
import proofs.«413475_j11897059410286_1_alg».proof.Proof.Gen.Kernel.Skeleton
import proofs.«413475_j11897059410286_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "This is the first grid point": the condition of the branch that clears the accumulator. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last grid point": the condition of the branch that applies the dense layers. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from the last point the output window is idle and not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The staging buffers and the scratch as the pipeline passes them -/

abbrev VO2_6 : View sig .tc .vmem S128x1 .f32 := (Memref.whole cc2_stg6_0 : Memref sig .tc .vmem S128x1 .f32).view
abbrev ms2_0 (t : Fin cfg2.N) : Memref sig .tc .vmem S5000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x1 .f32 := win2_6.stage (cfg2.slots t 6)
abbrev hs2_6 (t : Fin cfg2.N) : (ms2_6 t).IsWhole := hstage2_6 ((cfg2.slots t 6).cast nbuf2_6)
abbrev scM2 : Memref sig .tc .vmem S128x256 .f32 := Memref.whole cc2_scratch0
abbrev VS2 : View sig .tc .vmem S128x256 .f32 := scM2.view

/-- What the class invariant holds besides the accumulator's scratch buffer: the other launches' staging buffers, each
    whole at some contents, and the generator register at some state. -/
def restR (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ ∃ r, prngReg c r)

/-- The class invariant hands out the scratch buffer at some contents beside the rest, -/
theorem PhiA2_split (c : Dev nD) :
    (Pipeline.ΦA spec2 c : sProp 𝕄) ⊢ iprop((∃ d, owns (c : Thread nD τ) scM2 fullShare d) ∗ restR (F := F) c) := by
  unfold Pipeline.ΦA restR; rw [scopedRest2_eq]; simp only [scM2, owns_whole]
  iintro ⟨⟨H0, H1, H2, H3, H4, H5, H6, H7, H8, H9, H10, H11, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- and takes it back at any contents. -/
theorem PhiA2_join (c : Dev nD) :
    iprop((∃ d, owns (c : Thread nD τ) scM2 fullShare d) ∗ restR (F := F) c) ⊢ (Pipeline.ΦA spec2 c : sProp 𝕄) := by
  unfold Pipeline.ΦA restR; rw [scopedRest2_eq]; simp only [scM2, owns_whole]
  iintro ⟨HS, ⟨H0, H1, H2, H3, H4, H5, H6, H7, H8, H9, H10, H11⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iexact Hg

/-! ## The body at the first point -/

set_option maxHeartbeats 1000000 in
/-- At the first point (the clearing branch taken, the dense-layer branch not): on whole buffers — the rows' and the
    graph ids' at their contents, the scratch at anything — the body runs and leaves the two inputs as they were and
    the scratch with the stores `LS0` written; the stores are what the run finds. -/
noncomputable def kernelRun2_A (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : cond2_0 i) (hc1 : ¬cond2_1 i)
    (x0 : Vec F S5000x256 .f32) (x1 : Vec F S5000x1 .i32) :
    { LS0 : List (View.Piece (Elt F) S128x256 .f32) //
      ∀ (E : Set ℕ) (K : PUnit → sProp 𝕄),
        iprop(owns (c : Thread nD τ) arg1 fullShare x0 ∗ owns (c : Thread nD τ) arg2 fullShare x1 ∗ (∃ d, owns (c : Thread nD τ) arg8 fullShare d)
            ∗ (iprop(owns (c : Thread nD τ) arg1 fullShare x0 ∗ owns (c : Thread nD τ) arg2 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_head_kernel i arg1 harg1 arg2 harg2 arg3 harg3 arg4 harg4 arg5 harg5 arg6 harg6 arg7 harg7 arg8 harg8) K } := by
  refine ⟨?_, fun E K => ?run⟩
  case run =>
    simp only [cc2__pool_head_kernel_eq_skeleton]; unfold cc2__pool_head_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.K.R2B.lean ====
/-
  The pooling launch, second part: the body's run at a middle grid point (neither branch taken): it reads the
  accumulator the point before left, adds this point's product and stores the sum back.
-/
import proofs.«413475_j11897059410286_1_alg».proof.Proof.K.R2A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a middle point: on whole buffers — the rows' and the graph ids' at their contents, the scratch at what the point
    before left — the body runs and leaves the two inputs as they were and the scratch with the stores `LS0` written. -/
noncomputable def kernelRun2_B (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : ¬cond2_1 i)
    (x0 : Vec F S5000x256 .f32) (x1 : Vec F S5000x1 .i32) (xs0 : Vec F S128x256 .f32) :
    { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg8 fullShare xs0
            ∗ (iprop(owns (c : Thread nD τ) arg1 fullShare x0 ∗ owns (c : Thread nD τ) arg2 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_head_kernel i arg1 harg1 arg2 harg2 arg3 harg3 arg4 harg4 arg5 harg5 arg6 harg6 arg7 harg7 arg8 harg8) K } := by
  refine ⟨?_, fun E K => ?run⟩
  case run =>
    simp only [cc2__pool_head_kernel_eq_skeleton]; unfold cc2__pool_head_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Hand

end
-- ==== Proof.K.R2C.lean ====
/-
  The pooling launch, third part: the body's run at the last grid point (the dense-layer branch taken): it adds the
  last product into the accumulator, then reads the accumulator back, applies the two dense layers and stores the
  [128, 1] result into the output block.
-/
import proofs.«413475_j11897059410286_1_alg».proof.Proof.K.R2B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At the last point: on whole buffers — the six inputs' at their contents, the output's at anything, the scratch at
    what the point before left — the body runs and leaves the inputs as they were, the output with the stores `L6`
    written and the scratch with the stores `LS0` written. -/
noncomputable def kernelRun2_C (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) :
    Σ' (L6 : List (View.Piece (Elt F) S128x1 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2__pool_head_kernel i arg1 harg1 arg2 harg2 arg3 harg3 arg4 harg4 arg5 harg5 arg6 harg6 arg7 harg7 arg8 harg8) K } := by
  refine ⟨?_, ?_, fun E K => ?run⟩
  case run =>
    simp only [cc2__pool_head_kernel_eq_skeleton]; unfold cc2__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.Kernel.Hand

end
-- ==== Proof.K.R2.lean ====
/-
  The pooling launch, last part: what the accumulator and the output block hold after each grid point, the
  launch's proof data, and the body obligation at every point.
-/
import proofs.«413475_j11897059410286_1_alg».proof.Proof.K.R2C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover2_A (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : cond2_0 i) (hc1 : ¬cond2_1 i)
    (x0 : Vec F S5000x256 .f32) (x1 : Vec F S5000x1 .i32) (y : S128x256.Idx) :
    ∃ pc ∈ (kernelRun2_A c i arg1 harg1 arg2 harg2 arg3 harg3 arg4 harg4 arg5 harg5 arg6 harg6 arg7 harg7 arg8 harg8 hc0 hc1 x0 x1).1, y ∈ pc.1.set :=
  View.cover_of_tiledL (kernelRun2_A c i arg1 harg1 arg2 harg2 arg3 harg3 arg4 harg4 arg5 harg5 arg6 harg6 arg7 harg7 arg8 harg8 hc0 hc1 x0 x1).1 S128x256.size (by sl_kernel_rfl) y

/-- The accumulator after the first point: its stores read back. -/
def sout2_A (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : cond2_0 i) (hc1 : ¬cond2_1 i)
    (x0 : Vec F S5000x256 .f32) (x1 : Vec F S5000x1 .i32) : Vec F S128x256 .f32 :=
  VS2.read (Elt F) (VS2.writes (Elt F) VS2.junk (kernelRun2_A c i arg1 harg1 arg2 harg2 arg3 harg3 arg4 harg4 arg5 harg5 arg6 harg6 arg7 harg7 arg8 harg8 hc0 hc1 x0 x1).1)

theorem scover2_B (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : ¬cond2_1 i)
    (x0 : Vec F S5000x256 .f32) (x1 : Vec F S5000x1 .i32) (xs0 : Vec F S128x256 .f32) (y : S128x256.Idx) :
    ∃ pc ∈ (kernelRun2_B c i arg1 harg1 arg2 harg2 arg3 harg3 arg4 harg4 arg5 harg5 arg6 harg6 arg7 harg7 arg8 harg8 hc0 hc1 x0 x1 xs0).1, y ∈ pc.1.set :=
  View.cover_of_tiledL (kernelRun2_B c i arg1 harg1 arg2 harg2 arg3 harg3 arg4 harg4 arg5 harg5 arg6 harg6 arg7 harg7 arg8 harg8 hc0 hc1 x0 x1 xs0).1 S128x256.size (by sl_kernel_rfl) y

/-- The accumulator after a middle point, over what the point before left. -/
def sout2_B (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : ¬cond2_1 i)
    (x0 : Vec F S5000x256 .f32) (x1 : Vec F S5000x1 .i32) (xs0 : Vec F S128x256 .f32) : Vec F S128x256 .f32 :=
  VS2.read (Elt F) (VS2.writes (Elt F) VS2.junk (kernelRun2_B c i arg1 harg1 arg2 harg2 arg3 harg3 arg4 harg4 arg5 harg5 arg6 harg6 arg7 harg7 arg8 harg8 hc0 hc1 x0 x1 xs0).1)

theorem cover2_C (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) (y : S128x1.Idx) :
    ∃ pc ∈ (kernelRun2_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).1 S128x1.size (by sl_kernel_rfl) y

/-- The output block after the last point: its stores read back. -/
def out2_C (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) : Vec F S128x1 .f32 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 x5 xs0).1)

theorem scover2_C (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) (y : S128x256.Idx) :
    ∃ pc ∈ (kernelRun2_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).2.1 S128x256.size (by sl_kernel_rfl) y

/-- The accumulator after the last point. -/
def sout2_C (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) : Vec F S128x256 .f32 :=
  VS2.read (Elt F) (VS2.writes (Elt F) VS2.junk (kernelRun2_C c i arg1 harg1 arg2 harg2 arg3 harg3 arg4 harg4 arg5 harg5 arg6 harg6 arg7 harg7 arg8 harg8 hc0 hc1 x0 x1 x2 x3 x4 x5 xs0).2.1)

/-- A placeholder for the output block at the points that leave it untouched (never consulted: the window is idle
    there and not written back). -/
def outIdle2 : Vec F S128x1 .f32 := VO2_6.read (Elt F) VO2_6.junk

/-! ## Point by point -/

/-- What the output block and the accumulator hold after the body at position `n`: the first point's run at 0, then
    the last point's run at 9 and the middle run elsewhere, each over the accumulator the point before left. -/
def outsAt2 (c : Dev nD) : (n : ℕ) → n < cfg2.N → Vec F S128x1 .f32 × Vec F S128x256 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2 (Memref.isWhole_whole _) ((hcond2_0 ⟨0, hn⟩).mpr rfl) (fun h => absurd ((hcond2_1 ⟨0, hn⟩).mp h) (by show ¬(0 : ℕ) = 9; omega)) (iblk2 V c 0 ⟨0, hn⟩) (iblk2 V c 1 ⟨0, hn⟩))
  | n + 1, hn =>
    if h1 : n + 1 = 9 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
    else
      (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) :
    outsAt2 V c t.val t.isLt = (outIdle2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => absurd (((hcond2_1 t).mp h).symm.trans h0) (by decide)) (iblk2 V c 0 t) (iblk2 V c 1 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 9) :
    outsAt2 V c t.val t.isLt = (outIdle2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 9) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-- The launch's invariant before position `n`: the class's before the first point; afterwards the accumulator's
    scratch buffer at what the point before left, beside the rest. -/
def PhiS2 (c : Dev nD) : (n : ℕ) → n ≤ cfg2.N → sProp 𝕄
  | 0, _ => Pipeline.ΦA spec2 c
  | n + 1, hn => iprop(owns (c : Thread nD τ) scM2 fullShare ((outsAt2 V c n hn).2) ∗ restR (F := F) c)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare ((outsAt2 V c n hn).2) ∗ restR (F := F) c) := rfl

theorem PhiS2_pos (c : Dev nD) (n : ℕ) (h : n ≤ cfg2.N) (hz : n ≠ 0) :
    PhiS2 V c n h = iprop(owns (c : Thread nD τ) scM2 fullShare ((outsAt2 V c (n - 1) (by omega)).2) ∗ restR (F := F) c) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' buffers hold their blocks; the point's position says which run applies; the
    invariant hands the body the accumulator at what the point before left (at anything at the first point) and takes
    it back at this point's contents; the output block is handed back untouched except at the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  have hN : t.val < 10 := lt_of_lt_of_eq t.isLt (show cfg2.N = 10 from N_2)
  by_cases h0 : t.val = 0
  · have h1 : ¬t.val = 9 := by omega
    rw [Dat.leavesExact_idle (dat2 V c) 6 t (idleAt2_6 t (fun h => h1 ((hcond2_1 t).mp h))) (noFlush2_6 t (fun h => h1 ((hcond2_1 t).mp h)))]
    rw [outsAt2_A V c t h0]
    unfold sout2_A; (try dsimp only)
    rw [PhiS2_castSucc V c t, PhiS2_zero V c _ _ h0]
    iintro ⟨HΦ, Ho, ⟨%d0, H0⟩, ⟨%d1, H1⟩, H2, H3, H4, H5, H6⟩
    ihave HΦ' := (PhiA2_split (F := F) c) $$ HΦ
    icases HΦ' with ⟨HS0, Hr⟩
    iapply ((kernelRun2_A c (grid2.coords t) _ _ _ _ _ _ _ _ _ _ _ _ _ _ _ _ ((hcond2_0 t).mpr h0) (fun h => h1 ((hcond2_1 t).mp h)) (iblk2 V c 0 t) (iblk2 V c 1 t)).2 Set.univ _)
    isplitl [H0]; · iexact H0
    isplitl [H1]; · iexact H1
    isplitl [HS0]; · iexact HS0
    iintro ⟨H0, H1, ⟨%es0, HS0⟩⟩
    isplitl [HS0 Hr]
    · isplitl [HS0]
      · unfold owns; iexists _; isplitr
        swap; · iexact HS0
        ipureintro; exact View.read_writes_of_cover _ _ _ _ _ (scover2_A c _ _ _ _ _ _ _ _ _ _ _ _ _ _ _ _ _ _ _ _ _)
      iexact Hr
    isplitl [Ho]; · iexact Ho
    isplitl [H0]; · iexact H0
    isplitl [H1]; · iexact H1
    isplitl [H2]; · icases H2 with ⟨%d, H2⟩; iexact H2
    isplitl [H3]; · icases H3 with ⟨%d, H3⟩; iexact H3
    isplitl [H4]; · icases H4 with ⟨%d, H4⟩; iexact H4
    isplitl [H5]; · icases H5 with ⟨%d, H5⟩; iexact H5
    iexact H6
  · by_cases h1 : t.val = 9
    · rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold out2_C sout2_C; (try dsimp only)
      rw [PhiS2_castSucc V c t, PhiS2_pos V c _ _ h0]
      iintro ⟨⟨HS0, Hr⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr]
      · isplitl [HS0]
        · unfold owns; iexists _; isplitr
          swap; · iexact HS0
          ipureintro; exact View.read_writes_of_cover _ _ _ _ _ (scover2_C c _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C c _ _ _ _ _ _ _ _ _ _ _ _ _ _ _ _ _ _ _ _ _ _ _ _ _ _)
    · rw [Dat.leavesExact_idle (dat2 V c) 6 t (idleAt2_6 t (fun h => h1 ((hcond2_1 t).mp h))) (noFlush2_6 t (fun h => h1 ((hcond2_1 t).mp h)))]
      rw [outsAt2_B V c t h0 h1]
      unfold sout2_B; (try dsimp only)
      rw [PhiS2_castSucc V c t, PhiS2_pos V c _ _ h0]
      iintro ⟨⟨HS0, Hr⟩, Ho, ⟨%d0, H0⟩, ⟨%d1, H1⟩, H2, H3, H4, H5, H6⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) _).2 Set.univ _)
      isplitl [H0]; · iexact H0
      isplitl [H1]; · iexact H1
      isplitl [HS0]; · iexact HS0
      iintro ⟨H0, H1, ⟨%es0, HS0⟩⟩
      isplitl [HS0 Hr]
      · isplitl [HS0]
        · unfold owns; iexists _; isplitr
          swap; · iexact HS0
          ipureintro; exact View.read_writes_of_cover _ _ _ _ _ (scover2_B c _ _ _ _ _ _ _ _ _ _ _ _ _ _ _ _ _ _ _ _ _ _)
        iexact Hr
      isplitl [Ho]; · iexact Ho
      isplitl [H0]; · iexact H0
      isplitl [H1]; · iexact H1
      isplitl [H2]; · icases H2 with ⟨%d, H2⟩; iexact H2
      isplitl [H3]; · icases H3 with ⟨%d, H3⟩; iexact H3
      isplitl [H4]; · icases H4 with ⟨%d, H4⟩; iexact H4
      isplitl [H5]; · icases H5 with ⟨%d, H5⟩; iexact H5
      iexact H6

theorem body_obligation2 (c : Dev nD) : BodyObligation (dat2 (F := F) V c) (defs₀ (F := F)) Variants.none () Set.univ := fun t => by
  rw [bigSep_W2, bigSep_W2]
  exact sound_body2 V c t

/-- What the launch hands the pipeline is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: what the accumulator holds is forgotten. -/
theorem hout2 (c : Dev nD) : (dat2 V c).Φ (Fin.last cfg2.N) ⊢ Pipeline.ΦA spec2 c := by
  have ht : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl, PhiS2_pos V c _ _ ht]
  iintro ⟨HS0, Hr⟩
  iapply (PhiA2_join (F := F) c)
  isplitl [HS0]; · iexists _; iexact HS0
  iexact Hr

end Cert.Kernel.Hand

end
-- ==== Proof.K.Run.lean ====
/-
  The whole program's run: its three launches among the stretches of host operations, from the launch memory to the
  return. The buffers' contents at each boundary are a fold from the launch memory (a host stretch applies its
  operations; a launch leaves its output array at what its write-backs make of it and every other buffer as entered);
  every argument array is read back through the fold to its launch contents, and the result array is what the last
  launch's one write-back leaves.
-/
import proofs.«413475_j11897059410286_1_alg».proof.Proof.K.R0
import proofs.«413475_j11897059410286_1_alg».proof.Proof.K.R1
import proofs.«413475_j11897059410286_1_alg».proof.Proof.K.R2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At launch 0's exit: its arrays at what the pipeline leaves (the inputs as entered, the output's write-backs folded in),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At launch 1's exit: its arrays at what the pipeline leaves (the inputs as entered, the output's write-backs folded in),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At launch 2's exit: its arrays at what the pipeline leaves (the inputs as entered, the output's write-backs folded in),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 1).trans (((dat0 (V1 m ρ) c).arrAt_in 1 rfl _).trans (A_eq0 (V1 m ρ) c 1))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := (W4_arr m ρ c 1).trans (((dat1 (V3 m ρ) c).arrAt_in 1 rfl _).trans (A_eq1 (V3 m ρ) c 1))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := (W6_arr m ρ c 2).trans (((dat2 (V5 m ρ) c).arrAt_in 2 rfl _).trans (A_eq2 (V5 m ρ) c 2))
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := (W6_arr m ρ c 4).trans (((dat2 (V5 m ρ) c).arrAt_in 4 rfl _).trans (A_eq2 (V5 m ρ) c 4))
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- Launch 0 over the thread state: entered with every unscoped buffer at `W1`, left at `W2`. Its arrays are
    split out of the unscoped buffers and put back at their final contents; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left at `W4`. Its arrays are
    split out of the unscoped buffers and put back at their final contents; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left at `W6`. Its arrays are
    split out of the unscoped buffers and put back at their final contents; the generator register goes into the
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (hin2 (V5 m ρ) c)
    unfold Pipeline.ΦA
    isplitl [Hr]; · iexact Hr
    iexact Hp
  hout c := by
    rw [Pipeline.ownSems0_none, show (pdats m ρ 2 c).Φ (Fin.last _) = (dat2 (V5 m ρ) c).Φ (Fin.last cfg2.N) from rfl]
    iintro H
    ihave H' := (hout2 (V5 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

/-- THE RESULT beside the frame: the result array ends at what the pooling launch's write-back leaves. -/
theorem run_value : θ_run defs (onTc (τ := τ) (main (F := F))) ⟨m, fun _ => 0, ρ⟩ (fun r => ∀ c : Dev nD,
      r.2.mem ((c.tc : Thread nD τ).loc main_v33) = (dat2 (V5 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v33 (by decide))).trans (W6_arr m ρ c 6),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

end Cert.Kernel.Hand

end
-- ==== Proof.KI.R0.lean ====
/-
  The matrix-product launch 0 of the program, as the pipeline sees it: at each of its ten grid points the body
  loads a block of rows, the whole weight matrix and the bias row, and stores max(rows · weights + bias, 0)
  into the output block. Stated at a parameter `V`, the contents of the core's buffers when the launch is entered.
-/
import proofs.«413475_j11897059410286_1_alg».proof.Proof.Gen.KernelIdeal.Launch
import proofs.«413475_j11897059410286_1_alg».proof.Proof.Gen.KernelIdeal.Skeleton
import proofs.«413475_j11897059410286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_x : Rect S5000x128 := Rect.unit (s := S5000x128) ![0, 0] S5000x128.size inb_S5000x128_S5000x128_0_0
abbrev r0_w : Rect S128x256 := Rect.unit (s := S128x256) ![0, 0] S128x256.size inb_S128x256_S128x256_0_0
abbrev r0_b : Rect S1x256 := Rect.unit (s := S1x256) ![0, 0] S1x256.size inb_S1x256_S1x256_0_0
abbrev r0_o : Rect S5000x256 := Rect.unit (s := S5000x256) ![0, 0] S5000x256.size inb_S5000x256_S5000x256_0_0

/-- The output block after the body, from the three input blocks: its one store. -/
def out0_3 (x0 : Vec F S5000x128 .f32) (x1 : Vec F S128x256 .f32) (x2 : Vec F S1x256 .f32) : Vec F S5000x256 .f32 :=
  View.canon [⟨r0_o, k0_pay1 (View.ld x0 r0_x) (View.ld x1 r0_w) (View.ld x2 r0_b)⟩]

theorem cover0_3 (p0 : Vec F S5000x256 .f32) (y : S5000x256.Idx) :
    ∃ pc ∈ ([⟨r0_o, p0⟩] : List (View.Piece (Elt F) S5000x256 .f32)), y ∈ pc.1.set :=
  View.cover_of_tiled [⟨r0_o, p0⟩] S5000x256.size (by rfl) y

set_option maxHeartbeats 1000000 in
/-- The body on whole staging buffers: the inputs come back as they were, the output holds `out0_3` of them. -/
theorem sound_kernel0 (c : Dev nD) (E : Set ℕ) (i : grid0.Coords) (arg1 : Memref sig .tc .vmem S5000x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S5000x256 .f32) (harg4 : arg4.IsWhole)
    (x0 : Vec F S5000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__matmul_bias_kernel i arg1 harg1 arg2 harg2 arg3 harg3 arg4 harg4) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The launch's proof data on core `c`: the arrays as the launch finds them; after the body each input's buffer at
    its block and the output's at `out0_3` of the input blocks; nothing carried between points; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The matrix-product launch 1 of the program, as the pipeline sees it: at each of its ten grid points the body
  loads a block of rows, the whole weight matrix and the bias row, and stores max(rows · weights + bias, 0)
  into the output block. Stated at a parameter `V`, the contents of the core's buffers when the launch is entered.
-/
import proofs.«413475_j11897059410286_1_alg».proof.Proof.Gen.KernelIdeal.Launch
import proofs.«413475_j11897059410286_1_alg».proof.Proof.Gen.KernelIdeal.Skeleton
import proofs.«413475_j11897059410286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_x : Rect S5000x256 := Rect.unit (s := S5000x256) ![0, 0] S5000x256.size inb_S5000x256_S5000x256_0_0
abbrev r1_w : Rect S256x256 := Rect.unit (s := S256x256) ![0, 0] S256x256.size inb_S256x256_S256x256_0_0
abbrev r1_b : Rect S1x256 := Rect.unit (s := S1x256) ![0, 0] S1x256.size inb_S1x256_S1x256_0_0
abbrev r1_o : Rect S5000x256 := Rect.unit (s := S5000x256) ![0, 0] S5000x256.size inb_S5000x256_S5000x256_0_0

/-- The output block after the body, from the three input blocks: its one store. -/
def out1_3 (x0 : Vec F S5000x256 .f32) (x1 : Vec F S256x256 .f32) (x2 : Vec F S1x256 .f32) : Vec F S5000x256 .f32 :=
  View.canon [⟨r1_o, k1_pay1 (View.ld x0 r1_x) (View.ld x1 r1_w) (View.ld x2 r1_b)⟩]

theorem cover1_3 (p0 : Vec F S5000x256 .f32) (y : S5000x256.Idx) :
    ∃ pc ∈ ([⟨r1_o, p0⟩] : List (View.Piece (Elt F) S5000x256 .f32)), y ∈ pc.1.set :=
  View.cover_of_tiled [⟨r1_o, p0⟩] S5000x256.size (by rfl) y

set_option maxHeartbeats 1000000 in
/-- The body on whole staging buffers: the inputs come back as they were, the output holds `out1_3` of them. -/
theorem sound_kernel1 (c : Dev nD) (E : Set ℕ) (i : grid1.Coords) (arg1 : Memref sig .tc .vmem S5000x256 .f32) (harg1 : arg1.IsWhole) (arg2 : Memref sig .tc .vmem S256x256 .f32) (harg2 : arg2.IsWhole)
    (arg3 : Memref sig .tc .vmem S1x256 .f32) (harg3 : arg3.IsWhole) (arg4 : Memref sig .tc .vmem S5000x256 .f32) (harg4 : arg4.IsWhole)
    (x0 : Vec F S5000x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__matmul_bias_kernel i arg1 harg1 arg2 harg2 arg3 harg3 arg4 harg4) K := by
  simp only [cc1__matmul_bias_kernel_eq_skeleton]; unfold cc1__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The launch's proof data on core `c`: the arrays as the launch finds them; after the body each input's buffer at
    its block and the output's at `out1_3` of the input blocks; nothing carried between points; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2A.lean ====
/-
  The pooling launch as the pipeline sees it, first part: what its three kinds of grid point share, and the body's
  run at the first point. The body keeps a [128, 256] accumulator in a scratch buffer across its ten grid points:
  it clears it at the first point, adds the point's one-hot-transposed times rows product at every point, and at the
  last point applies the two dense layers to it and stores the [128, 1] result. Stated at a parameter `V`, the
  contents of the core's buffers when the launch is entered.
-/
import proofs.«413475_j11897059410286_1_alg».proof.Proof.Gen.KernelIdeal.Launch
import proofs.«413475_j11897059410286_1_alg».proof.Proof.Gen.KernelIdeal.Skeleton
import proofs.«413475_j11897059410286_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "This is the first grid point": the condition of the branch that clears the accumulator. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last grid point": the condition of the branch that applies the dense layers. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from the last point the output window is idle and not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The staging buffers and the scratch as the pipeline passes them -/

abbrev VO2_6 : View sig .tc .vmem S128x1 .f32 := (Memref.whole cc2_stg6_0 : Memref sig .tc .vmem S128x1 .f32).view
abbrev ms2_0 (t : Fin cfg2.N) : Memref sig .tc .vmem S5000x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .i32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S128x1 .f32 := win2_6.stage (cfg2.slots t 6)
abbrev hs2_6 (t : Fin cfg2.N) : (ms2_6 t).IsWhole := hstage2_6 ((cfg2.slots t 6).cast nbuf2_6)
abbrev scM2 : Memref sig .tc .vmem S128x256 .f32 := Memref.whole cc2_scratch0
abbrev VS2 : View sig .tc .vmem S128x256 .f32 := scM2.view

/-- What the class invariant holds besides the accumulator's scratch buffer: the other launches' staging buffers, each
    whole at some contents, and the generator register at some state. -/
def restR (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f)) ∗ ∃ r, prngReg c r)

/-- The class invariant hands out the scratch buffer at some contents beside the rest, -/
theorem PhiA2_split (c : Dev nD) :
    (Pipeline.ΦA spec2 c : sProp 𝕄) ⊢ iprop((∃ d, owns (c : Thread nD τ) scM2 fullShare d) ∗ restR (F := F) c) := by
  unfold Pipeline.ΦA restR; rw [scopedRest2_eq]; simp only [scM2, owns_whole]
  iintro ⟨⟨H0, H1, H2, H3, H4, H5, H6, H7, H8, H9, H10, H11, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iexact Hg

/-- and takes it back at any contents. -/
theorem PhiA2_join (c : Dev nD) :
    iprop((∃ d, owns (c : Thread nD τ) scM2 fullShare d) ∗ restR (F := F) c) ⊢ (Pipeline.ΦA spec2 c : sProp 𝕄) := by
  unfold Pipeline.ΦA restR; rw [scopedRest2_eq]; simp only [scM2, owns_whole]
  iintro ⟨HS, ⟨H0, H1, H2, H3, H4, H5, H6, H7, H8, H9, H10, H11⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HS
  iexact Hg

/-! ## The body at the first point -/

set_option maxHeartbeats 1000000 in
/-- At the first point (the clearing branch taken, the dense-layer branch not): on whole buffers — the rows' and the
    graph ids' at their contents, the scratch at anything — the body runs and leaves the two inputs as they were and
    the scratch with the stores `LS0` written; the stores are what the run finds. -/
noncomputable def kernelRun2_A (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : cond2_0 i) (hc1 : ¬cond2_1 i)
    (x0 : Vec F S5000x256 .f32) (x1 : Vec F S5000x1 .i32) :
    { LS0 : List (View.Piece (Elt F) S128x256 .f32) //
      ∀ (E : Set ℕ) (K : PUnit → sProp 𝕄),
        iprop(owns (c : Thread nD τ) arg1 fullShare x0 ∗ owns (c : Thread nD τ) arg2 fullShare x1 ∗ (∃ d, owns (c : Thread nD τ) arg8 fullShare d)
            ∗ (iprop(owns (c : Thread nD τ) arg1 fullShare x0 ∗ owns (c : Thread nD τ) arg2 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_head_kernel i arg1 harg1 arg2 harg2 arg3 harg3 arg4 harg4 arg5 harg5 arg6 harg6 arg7 harg7 arg8 harg8) K } := by
  refine ⟨?_, fun E K => ?run⟩
  case run =>
    simp only [cc2__pool_head_kernel_eq_skeleton]; unfold cc2__pool_head_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KI.R2B.lean ====
/-
  The pooling launch, second part: the body's run at a middle grid point (neither branch taken): it reads the
  accumulator the point before left, adds this point's product and stores the sum back.
-/
import proofs.«413475_j11897059410286_1_alg».proof.Proof.KI.R2A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a middle point: on whole buffers — the rows' and the graph ids' at their contents, the scratch at what the point
    before left — the body runs and leaves the two inputs as they were and the scratch with the stores `LS0` written. -/
noncomputable def kernelRun2_B (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : ¬cond2_1 i)
    (x0 : Vec F S5000x256 .f32) (x1 : Vec F S5000x1 .i32) (xs0 : Vec F S128x256 .f32) :
    { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg8 fullShare xs0
            ∗ (iprop(owns (c : Thread nD τ) arg1 fullShare x0 ∗ owns (c : Thread nD τ) arg2 fullShare x1 ∗ (∃ f, arg8.view.loc (c : Thread nD τ) ↦[arg8.view.set]{fullShare} arg8.view.writes (Elt F) f LS0)) -∗ K ⟨⟩))
          ⊢ wp frame (wpE (defs₀ (F := F)) Variants.none c none) E (cc2__pool_head_kernel i arg1 harg1 arg2 harg2 arg3 harg3 arg4 harg4 arg5 harg5 arg6 harg6 arg7 harg7 arg8 harg8) K } := by
  refine ⟨?_, fun E K => ?run⟩
  case run =>
    simp only [cc2__pool_head_kernel_eq_skeleton]; unfold cc2__pool_head_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Hand

end
-- ==== Proof.KI.R2C.lean ====
/-
  The pooling launch, third part: the body's run at the last grid point (the dense-layer branch taken): it adds the
  last product into the accumulator, then reads the accumulator back, applies the two dense layers and stores the
  [128, 1] result into the output block.
-/
import proofs.«413475_j11897059410286_1_alg».proof.Proof.KI.R2B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the last point: on whole buffers — the six inputs' at their contents, the output's at anything, the scratch at
    what the point before left — the body runs and leaves the inputs as they were, the output with the stores `L6`
    written and the scratch with the stores `LS0` written. -/
noncomputable def kernelRun2_C (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) :
    Σ' (L6 : List (View.Piece (Elt F) S128x1 .f32)), { LS0 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc2__pool_head_kernel i arg1 harg1 arg2 harg2 arg3 harg3 arg4 harg4 arg5 harg5 arg6 harg6 arg7 harg7 arg8 harg8) K } := by
  refine ⟨?_, ?_, fun E K => ?run⟩
  case run =>
    simp only [cc2__pool_head_kernel_eq_skeleton]; unfold cc2__pool_head_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

end Cert.KernelIdeal.Hand

end
-- ==== Proof.KI.R2.lean ====
/-
  The pooling launch, last part: what the accumulator and the output block hold after each grid point, the
  launch's proof data, and the body obligation at every point.
-/
import proofs.«413475_j11897059410286_1_alg».proof.Proof.KI.R2C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover2_A (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : cond2_0 i) (hc1 : ¬cond2_1 i)
    (x0 : Vec F S5000x256 .f32) (x1 : Vec F S5000x1 .i32) (y : S128x256.Idx) :
    ∃ pc ∈ (kernelRun2_A c i arg1 harg1 arg2 harg2 arg3 harg3 arg4 harg4 arg5 harg5 arg6 harg6 arg7 harg7 arg8 harg8 hc0 hc1 x0 x1).1, y ∈ pc.1.set :=
  View.cover_of_tiledL (kernelRun2_A c i arg1 harg1 arg2 harg2 arg3 harg3 arg4 harg4 arg5 harg5 arg6 harg6 arg7 harg7 arg8 harg8 hc0 hc1 x0 x1).1 S128x256.size (by sl_kernel_rfl) y

/-- The accumulator after the first point: its stores read back. -/
def sout2_A (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : cond2_0 i) (hc1 : ¬cond2_1 i)
    (x0 : Vec F S5000x256 .f32) (x1 : Vec F S5000x1 .i32) : Vec F S128x256 .f32 :=
  VS2.read (Elt F) (VS2.writes (Elt F) VS2.junk (kernelRun2_A c i arg1 harg1 arg2 harg2 arg3 harg3 arg4 harg4 arg5 harg5 arg6 harg6 arg7 harg7 arg8 harg8 hc0 hc1 x0 x1).1)

theorem scover2_B (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : ¬cond2_1 i)
    (x0 : Vec F S5000x256 .f32) (x1 : Vec F S5000x1 .i32) (xs0 : Vec F S128x256 .f32) (y : S128x256.Idx) :
    ∃ pc ∈ (kernelRun2_B c i arg1 harg1 arg2 harg2 arg3 harg3 arg4 harg4 arg5 harg5 arg6 harg6 arg7 harg7 arg8 harg8 hc0 hc1 x0 x1 xs0).1, y ∈ pc.1.set :=
  View.cover_of_tiledL (kernelRun2_B c i arg1 harg1 arg2 harg2 arg3 harg3 arg4 harg4 arg5 harg5 arg6 harg6 arg7 harg7 arg8 harg8 hc0 hc1 x0 x1 xs0).1 S128x256.size (by sl_kernel_rfl) y

/-- The accumulator after a middle point, over what the point before left. -/
def sout2_B (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : ¬cond2_1 i)
    (x0 : Vec F S5000x256 .f32) (x1 : Vec F S5000x1 .i32) (xs0 : Vec F S128x256 .f32) : Vec F S128x256 .f32 :=
  VS2.read (Elt F) (VS2.writes (Elt F) VS2.junk (kernelRun2_B c i arg1 harg1 arg2 harg2 arg3 harg3 arg4 harg4 arg5 harg5 arg6 harg6 arg7 harg7 arg8 harg8 hc0 hc1 x0 x1 xs0).1)

theorem cover2_C (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) (y : S128x1.Idx) :
    ∃ pc ∈ (kernelRun2_C c i arg1 harg1 arg2 harg2 arg3 harg3 arg4 harg4 arg5 harg5 arg6 harg6 arg7 harg7 arg8 harg8 hc0 hc1 x0 x1 x2 x3 x4 x5 xs0).1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).1 S128x1.size (by sl_kernel_rfl) y

/-- The output block after the last point: its stores read back. -/
def out2_C (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) : Vec F S128x1 .f32 :=
  VO2_6.read (Elt F) (VO2_6.writes (Elt F) VO2_6.junk (kernelRun2_C c i arg1 harg1 arg2 harg2 arg3 harg3 arg4 harg4 arg5 harg5 arg6 harg6 arg7 harg7 arg8 harg8 hc0 hc1 x0 x1 x2 x3 x4 x5 xs0).1)

theorem scover2_C (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) (y : S128x256.Idx) :
    ∃ pc ∈ (kernelRun2_C c i arg1 harg1 arg2 harg2 arg3 harg3 arg4 harg4 arg5 harg5 arg6 harg6 arg7 harg7 arg8 harg8 hc0 hc1 x0 x1 x2 x3 x4 x5 xs0).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 x4 x5 xs0).2.1 S128x256.size (by sl_kernel_rfl) y

/-- The accumulator after the last point. -/
def sout2_C (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) : Vec F S128x256 .f32 :=
  VS2.read (Elt F) (VS2.writes (Elt F) VS2.junk (kernelRun2_C c i arg1 harg1 arg2 harg2 arg3 harg3 arg4 harg4 arg5 harg5 arg6 harg6 arg7 harg7 arg8 harg8 hc0 hc1 x0 x1 x2 x3 x4 x5 xs0).2.1)

/-- A placeholder for the output block at the points that leave it untouched (never consulted: the window is idle
    there and not written back). -/
def outIdle2 : Vec F S128x1 .f32 := VO2_6.read (Elt F) VO2_6.junk

/-! ## Point by point -/

/-- What the output block and the accumulator hold after the body at position `n`: the first point's run at 0, then
    the last point's run at 9 and the middle run elsewhere, each over the accumulator the point before left. -/
def outsAt2 (c : Dev nD) : (n : ℕ) → n < cfg2.N → Vec F S128x1 .f32 × Vec F S128x256 .f32
  | 0, hn => (outIdle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2 (Memref.isWhole_whole _) ((hcond2_0 ⟨0, hn⟩).mpr rfl) (fun h => absurd ((hcond2_1 ⟨0, hn⟩).mp h) (by show ¬(0 : ℕ) = 9; omega)) (iblk2 V c 0 ⟨0, hn⟩) (iblk2 V c 1 ⟨0, hn⟩))
  | n + 1, hn =>
    if h1 : n + 1 = 9 then
      (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2,
       sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => absurd ((hcond2_0 ⟨n + 1, hn⟩).mp h) (Nat.succ_ne_zero n)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2)
    else
      (outIdle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => absurd ((hcond2_0 ⟨n + 1, hn⟩).mp h) (Nat.succ_ne_zero n)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val = 0) :
    outsAt2 V c t.val t.isLt = (outIdle2, sout2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => absurd (((hcond2_1 t).mp h).symm.trans h0) (by decide)) (iblk2 V c 0 t) (iblk2 V c 1 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 9) :
    outsAt2 V c t.val t.isLt = (outIdle2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 9) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2) := by
  obtain ⟨n, hn⟩ := t
  cases n with
  | zero => exact absurd rfl h0
  | succ n => exact (dif_pos h1).trans rfl

/-- The launch's invariant before position `n`: the class's before the first point; afterwards the accumulator's
    scratch buffer at what the point before left, beside the rest. -/
def PhiS2 (c : Dev nD) : (n : ℕ) → n ≤ cfg2.N → sProp 𝕄
  | 0, _ => Pipeline.ΦA spec2 c
  | n + 1, hn => iprop(owns (c : Thread nD τ) scM2 fullShare ((outsAt2 V c n hn).2) ∗ restR (F := F) c)

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(owns (c : Thread nD τ) scM2 fullShare ((outsAt2 V c n hn).2) ∗ restR (F := F) c) := rfl

theorem PhiS2_pos (c : Dev nD) (n : ℕ) (h : n ≤ cfg2.N) (hz : n ≠ 0) :
    PhiS2 V c n h = iprop(owns (c : Thread nD τ) scM2 fullShare ((outsAt2 V c (n - 1) (by omega)).2) ∗ restR (F := F) c) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' buffers hold their blocks; the point's position says which run applies; the
    invariant hands the body the accumulator at what the point before left (at anything at the first point) and takes
    it back at this point's contents; the output block is handed back untouched except at the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  have hN : t.val < 10 := lt_of_lt_of_eq t.isLt (show cfg2.N = 10 from N_2)
  by_cases h0 : t.val = 0
  · have h1 : ¬t.val = 9 := by omega
    rw [Dat.leavesExact_idle (dat2 V c) 6 t (idleAt2_6 t (fun h => h1 ((hcond2_1 t).mp h))) (noFlush2_6 t (fun h => h1 ((hcond2_1 t).mp h)))]
    rw [outsAt2_A V c t h0]
    unfold sout2_A; (try dsimp only)
    rw [PhiS2_castSucc V c t, PhiS2_zero V c _ _ h0]
    iintro ⟨HΦ, Ho, ⟨%d0, H0⟩, ⟨%d1, H1⟩, H2, H3, H4, H5, H6⟩
    ihave HΦ' := (PhiA2_split (F := F) c) $$ HΦ
    icases HΦ' with ⟨HS0, Hr⟩
    iapply ((kernelRun2_A c (grid2.coords t) _ _ _ _ _ _ _ _ _ _ _ _ _ _ _ _ ((hcond2_0 t).mpr h0) (fun h => h1 ((hcond2_1 t).mp h)) (iblk2 V c 0 t) (iblk2 V c 1 t)).2 Set.univ _)
    isplitl [H0]; · iexact H0
    isplitl [H1]; · iexact H1
    isplitl [HS0]; · iexact HS0
    iintro ⟨H0, H1, ⟨%es0, HS0⟩⟩
    isplitl [HS0 Hr]
    · isplitl [HS0]
      · unfold owns; iexists _; isplitr
        swap; · iexact HS0
        ipureintro; exact View.read_writes_of_cover _ _ _ _ _ (scover2_A c _ _ _ _ _ _ _ _ _ _ _ _ _ _ _ _ _ _ _ _ _)
      iexact Hr
    isplitl [Ho]; · iexact Ho
    isplitl [H0]; · iexact H0
    isplitl [H1]; · iexact H1
    isplitl [H2]; · icases H2 with ⟨%d, H2⟩; iexact H2
    isplitl [H3]; · icases H3 with ⟨%d, H3⟩; iexact H3
    isplitl [H4]; · icases H4 with ⟨%d, H4⟩; iexact H4
    isplitl [H5]; · icases H5 with ⟨%d, H5⟩; iexact H5
    iexact H6
  · by_cases h1 : t.val = 9
    · rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      unfold out2_C sout2_C; (try dsimp only)
      rw [PhiS2_castSucc V c t, PhiS2_pos V c _ _ h0]
      iintro ⟨⟨HS0, Hr⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hr]
      · isplitl [HS0]
        · unfold owns; iexists _; isplitr
          swap; · iexact HS0
          ipureintro; exact View.read_writes_of_cover _ _ _ _ _ (scover2_C c _ _ _ _ _ _ _ _ _ _ _ _ _ _ _ _ _ _ _ _ _ _ _ _ _ _)
        iexact Hr
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C c _ _ _ _ _ _ _ _ _ _ _ _ _ _ _ _ _ _ _ _ _ _ _ _ _ _)
    · rw [Dat.leavesExact_idle (dat2 V c) 6 t (idleAt2_6 t (fun h => h1 ((hcond2_1 t).mp h))) (noFlush2_6 t (fun h => h1 ((hcond2_1 t).mp h)))]
      rw [outsAt2_B V c t h0 h1]
      unfold sout2_B; (try dsimp only)
      rw [PhiS2_castSucc V c t, PhiS2_pos V c _ _ h0]
      iintro ⟨⟨HS0, Hr⟩, Ho, ⟨%d0, H0⟩, ⟨%d1, H1⟩, H2, H3, H4, H5, H6⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) _).2 Set.univ _)
      isplitl [H0]; · iexact H0
      isplitl [H1]; · iexact H1
      isplitl [HS0]; · iexact HS0
      iintro ⟨H0, H1, ⟨%es0, HS0⟩⟩
      isplitl [HS0 Hr]
      · isplitl [HS0]
        · unfold owns; iexists _; isplitr
          swap; · iexact HS0
          ipureintro; exact View.read_writes_of_cover _ _ _ _ _ (scover2_B c _ _ _ _ _ _ _ _ _ _ _ _ _ _ _ _ _ _ _ _ _ _)
        iexact Hr
      isplitl [Ho]; · iexact Ho
      isplitl [H0]; · iexact H0
      isplitl [H1]; · iexact H1
      isplitl [H2]; · icases H2 with ⟨%d, H2⟩; iexact H2
      isplitl [H3]; · icases H3 with ⟨%d, H3⟩; iexact H3
      isplitl [H4]; · icases H4 with ⟨%d, H4⟩; iexact H4
      isplitl [H5]; · icases H5 with ⟨%d, H5⟩; iexact H5
      iexact H6

theorem body_obligation2 (c : Dev nD) : BodyObligation (dat2 (F := F) V c) (defs₀ (F := F)) Variants.none () Set.univ := fun t => by
  rw [bigSep_W2, bigSep_W2]
  exact sound_body2 V c t

/-- What the launch hands the pipeline is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: what the accumulator holds is forgotten. -/
theorem hout2 (c : Dev nD) : (dat2 V c).Φ (Fin.last cfg2.N) ⊢ Pipeline.ΦA spec2 c := by
  have ht : (Fin.last cfg2.N).val ≠ 0 := by rw [Fin.val_last]; have : cfg2.N = 10 := N_2; omega
  rw [show (dat2 V c).Φ (Fin.last cfg2.N) = PhiS2 V c (Fin.last cfg2.N).val (Nat.le_of_lt_succ (Fin.last cfg2.N).isLt) from rfl, PhiS2_pos V c _ _ ht]
  iintro ⟨HS0, Hr⟩
  iapply (PhiA2_join (F := F) c)
  isplitl [HS0]; · iexists _; iexact HS0
  iexact Hr

end Cert.KernelIdeal.Hand

end
-- ==== Proof.KI.Run.lean ====
/-
  The whole program's run: its three launches among the stretches of host operations, from the launch memory to the
  return. The buffers' contents at each boundary are a fold from the launch memory (a host stretch applies its
  operations; a launch leaves its output array at what its write-backs make of it and every other buffer as entered);
  every argument array is read back through the fold to its launch contents, and the result array is what the last
  launch's one write-back leaves.
-/
import proofs.«413475_j11897059410286_1_alg».proof.Proof.KI.R0
import proofs.«413475_j11897059410286_1_alg».proof.Proof.KI.R1
import proofs.«413475_j11897059410286_1_alg».proof.Proof.KI.R2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At launch 0's exit: its arrays at what the pipeline leaves (the inputs as entered, the output's write-backs folded in),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At launch 1's exit: its arrays at what the pipeline leaves (the inputs as entered, the output's write-backs folded in),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At launch 2's exit: its arrays at what the pipeline leaves (the inputs as entered, the output's write-backs folded in),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 1).trans (((dat0 (V1 m ρ) c).arrAt_in 1 rfl _).trans (A_eq0 (V1 m ρ) c 1))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := (W4_arr m ρ c 1).trans (((dat1 (V3 m ρ) c).arrAt_in 1 rfl _).trans (A_eq1 (V3 m ρ) c 1))
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := (W6_arr m ρ c 2).trans (((dat2 (V5 m ρ) c).arrAt_in 2 rfl _).trans (A_eq2 (V5 m ρ) c 2))
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := (W6_arr m ρ c 4).trans (((dat2 (V5 m ρ) c).arrAt_in 4 rfl _).trans (A_eq2 (V5 m ρ) c 4))
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The launches as segments -/

set_option backward.isDefEq.respectTransparency.types false in
/-- Launch 0 over the thread state: entered with every unscoped buffer at `W1`, left at `W2`. Its arrays are
    split out of the unscoped buffers and put back at their final contents; the generator register goes into the
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at `W3`, left at `W4`. Its arrays are
    split out of the unscoped buffers and put back at their final contents; the generator register goes into the
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered with every unscoped buffer at `W5`, left at `W6`. Its arrays are
    split out of the unscoped buffers and put back at their final contents; the generator register goes into the
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V5 m ρ) c).Φ 0 from rfl]
    iintro ⟨Hp, -, Hr⟩
    iapply (hin2 (V5 m ρ) c)
    unfold Pipeline.ΦA
    isplitl [Hr]; · iexact Hr
    iexact Hp
  hout c := by
    rw [Pipeline.ownSems0_none, show (pdats m ρ 2 c).Φ (Fin.last _) = (dat2 (V5 m ρ) c).Φ (Fin.last cfg2.N) from rfl]
    iintro H
    ihave H' := (hout2 (V5 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ),
    .host (hseg hostOps2 hostOps2_sub hostOps2_fresh' (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state has every unscoped buffer at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

/-- THE RESULT beside the frame: the result array ends at what the pooling launch's write-back leaves. -/
theorem run_value : θ_run defs (onTc (τ := τ) (main (F := F))) ⟨m, fun _ => 0, ρ⟩ (fun r => ∀ c : Dev nD,
      r.2.mem ((c.tc : Thread nD τ).loc main_v33) = (dat2 (V5 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v33 (by decide))).trans (W6_arr m ρ c 6),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c)⟩) (run_all m ρ)

end Cert.KernelIdeal.Hand

end
-- ==== Proof.KI.Pay.lean ====
/-
  The kernel bodies' arithmetic read at an index, at the ideal values: each payload of the three kernel
  functions, read at one output coordinate, as a closed expression in the extended reals of the values it reads.
  A dense layer's payload at `(r, j)` is `max (∑ k, x (r, k) * w (k, j) + b (0, j)) 0`; the pooling payload at
  `(g, j)` is the old accumulator plus the sum over rows `r` of the indicator "row `r` belongs to graph `g`"
  times the row's entry; the head's payload at `(g, 0)` is the second dense layer applied to the first.
-/
import proofs.«413475_j11897059410286_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.KernelVsHost

noncomputable section

open scoped BigOperators

namespace Cert.KernelIdeal.Pay

open Cert.KernelIdeal Cert.KernelIdeal.Gen Idealize.ShloMosaic Idealize.ShloMosaic.ValueIdx

/-! ## The zero splat -/

/-- The splat of the float zero reads `0` everywhere. -/
theorem k2_pay1_apply (g : Fin 128) (j : Fin 256) : k2_pay1 (F := Ideal) (ix2 g j) = 0 := by
  unfold k2_pay1
  rw [shapeCast_self]
  exact Ideal.ofBits_zero_f32

/-! ### The product `[5000,128] × [128,256]`: its operand indices by coordinates, and the product at an index -/

theorem lhs_k0_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_k0_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_k0_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_k0_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Into the zero accumulator the product at `(r, j)` is `∑ k, A (r, k) * B (k, j)`. -/
theorem matmul_k0_apply {φ₁ φ₂ : FTy} (A : FVec Ideal S5000x128 φ₁) (B : FVec Ideal S128x256 φ₂) (r : Fin 5000) (j : Fin 256) :
    matmul dot_S5000x128_S128x256_S5000x256_1_0_0_1_n_n none A B (constant S5000x256 .f32 0x00000000#32) (ix2 r j)
      = ∑ k : Fin 128, A (ix2 r k) * B (ix2 k j) := by
  refine (Ideal.matmul_constant_zero_apply dot_S5000x128_S128x256_S5000x256_1_0_0_1_n_n none A B (ix2 r j)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 r j) ((contrEquiv1 dot_S5000x128_S128x256_S5000x256_1_0_0_1_n_n 128 rfl rfl).symm k) = ix2 r k := funext fun a => Fin.ext (by
    match a with
    | ⟨0, _⟩ => exact lhs_k0_0 _ _
    | ⟨1, _⟩ => exact (lhs_k0_1 _ _).trans hk)
  have er : dot_S5000x128_S128x256_S5000x256_1_0_0_1_n_n.rhsIdx (ix2 r j) ((contrEquiv1 dot_S5000x128_S128x256_S5000x256_1_0_0_1_n_n 128 rfl rfl).symm k) = ix2 k j := funext fun a => Fin.ext (by
    match a with
    | ⟨0, _⟩ => exact (rhs_k0_0 _ _).trans hk
    | ⟨1, _⟩ => exact rhs_k0_1 _ _)
  rw [el, er]

/-- The dense layer at `(r, j)`: the row of the block times the column of the matrix, plus the bias, cut at zero. -/
theorem k0_pay1_apply (v0 : Vec Ideal S5000x128 .f32) (v3 : Vec Ideal S128x256 .f32) (v6 : Vec Ideal S1x256 .f32) (r : Fin 5000) (j : Fin 256) :
    k0_pay1 (F := Ideal) v0 v3 v6 (ix2 r j) = max ((∑ k : Fin 128, v0 (ix2 r k) * v3 (ix2 k j)) + v6 (ix2 (0 : Fin 1) j)) 0 := by
  unfold k0_pay1
  rw [shapeCast_self, shapeCast_self]
  refine (maximumf_apply _ _ _).trans ?_
  refine congrArg₂ max ?_ Ideal.ofBits_zero_f32
  refine (addf_apply _ _ _).trans ?_
  refine congrArg₂ (· + ·) ?_ ?_
  · exact matmul_k0_apply _ _ r j
  · exact broadcastTo_1b_ab_apply _ _ r j

/-! ### The product `[5000,256] × [256,256]`: its operand indices by coordinates, and the product at an index -/

theorem lhs_k1_0 (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
theorem lhs_k1_1 (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_k1_0 (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_k1_1 (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- Into the zero accumulator the product at `(r, j)` is `∑ k, A (r, k) * B (k, j)`. -/
theorem matmul_k1_apply {φ₁ φ₂ : FTy} (A : FVec Ideal S5000x256 φ₁) (B : FVec Ideal S256x256 φ₂) (r : Fin 5000) (j : Fin 256) :
    matmul dot_S5000x256_S256x256_S5000x256_1_0_0_1_n_n none A B (constant S5000x256 .f32 0x00000000#32) (ix2 r j)
      = ∑ k : Fin 256, A (ix2 r k) * B (ix2 k j) := by
  refine (Ideal.matmul_constant_zero_apply dot_S5000x256_S256x256_S5000x256_1_0_0_1_n_n none A B (ix2 r j)).trans ?_
  rw [← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 r j) ((contrEquiv1 dot_S5000x256_S256x256_S5000x256_1_0_0_1_n_n 256 rfl rfl).symm k) = ix2 r k := funext fun a => Fin.ext (by
    match a with
    | ⟨0, _⟩ => exact lhs_k1_0 _ _
    | ⟨1, _⟩ => exact (lhs_k1_1 _ _).trans hk)
  have er : dot_S5000x256_S256x256_S5000x256_1_0_0_1_n_n.rhsIdx (ix2 r j) ((contrEquiv1 dot_S5000x256_S256x256_S5000x256_1_0_0_1_n_n 256 rfl rfl).symm k) = ix2 k j := funext fun a => Fin.ext (by
    match a with
    | ⟨0, _⟩ => exact (rhs_k1_0 _ _).trans hk
    | ⟨1, _⟩ => exact rhs_k1_1 _ _)
  rw [el, er]

/-- The dense layer at `(r, j)`: the row of the block times the column of the matrix, plus the bias, cut at zero. -/
theorem k1_pay1_apply (v0 : Vec Ideal S5000x256 .f32) (v3 : Vec Ideal S256x256 .f32) (v6 : Vec Ideal S1x256 .f32) (r : Fin 5000) (j : Fin 256) :
    k1_pay1 (F := Ideal) v0 v3 v6 (ix2 r j) = max ((∑ k : Fin 256, v0 (ix2 r k) * v3 (ix2 k j)) + v6 (ix2 (0 : Fin 1) j)) 0 := by
  unfold k1_pay1
  rw [shapeCast_self, shapeCast_self]
  refine (maximumf_apply _ _ _).trans ?_
  refine congrArg₂ max ?_ Ideal.ofBits_zero_f32
  refine (addf_apply _ _ _).trans ?_
  refine congrArg₂ (· + ·) ?_ ?_
  · exact matmul_k1_apply _ _ r j
  · exact broadcastTo_1b_ab_apply _ _ r j

/-! ### The product `[128,256] × [256,256]`: its operand indices by coordinates, and the product at an index -/

theorem lhs_h1_0 (i : S128x256.Idx) (q : dot_S128x256_S256x256_S128x256_1_0_0_1_n_n.contr.Idx) :
    (dot_S128x256_S256x256_S128x256_1_0_0_1_n_n.lhsIdx i q 0).val = (i 0).val := by
  unfold DotDims.lhsIdx
  rw [dif_neg (show ¬(0 : Fin S128x256.rank) ∈ dot_S128x256_S256x256_S128x256_1_0_0_1_n_n.lhsBatch by decide), dif_pos (show (0 : Fin S128x256.rank) ∈ dot_S128x256_S256x256_S128x256_1_0_0_1_n_n.lhsNonContracting by decide)]
  rfl
theorem lhs_h1_1 (i : S128x256.Idx) (q : dot_S128x256_S256x256_S128x256_1_0_0_1_n_n.contr.Idx) :
    (dot_S128x256_S256x256_S128x256_1_0_0_1_n_n.lhsIdx i q 1).val = (q ⟨0, by decide⟩).val :=
  dot_S128x256_S256x256_S128x256_1_0_0_1_n_n.lhsIdx_val_of_single rfl i q
theorem rhs_h1_0 (i : S128x256.Idx) (q : dot_S128x256_S256x256_S128x256_1_0_0_1_n_n.contr.Idx) :
    (dot_S128x256_S256x256_S128x256_1_0_0_1_n_n.rhsIdx i q 0).val = (q ⟨0, by decide⟩).val :=
  dot_S128x256_S256x256_S128x256_1_0_0_1_n_n.rhsIdx_val_of_single rfl i q
theorem rhs_h1_1 (i : S128x256.Idx) (q : dot_S128x256_S256x256_S128x256_1_0_0_1_n_n.contr.Idx) :
    (dot_S128x256_S256x256_S128x256_1_0_0_1_n_n.rhsIdx i q 1).val = (i 1).val := by
  unfold DotDims.rhsIdx
  rw [dif_neg (show ¬(1 : Fin S256x256.rank) ∈ dot_S128x256_S256x256_S128x256_1_0_0_1_n_n.rhsBatch by decide), dif_pos (show (1 : Fin S256x256.rank) ∈ dot_S128x256_S256x256_S128x256_1_0_0_1_n_n.rhsNonContracting by decide)]
  rfl

/-- Into the zero accumulator the product at `(r, j)` is `∑ k, A (r, k) * B (k, j)`. -/
theorem matmul_h1_apply {φ₁ φ₂ : FTy} (A : FVec Ideal S128x256 φ₁) (B : FVec Ideal S256x256 φ₂) (r : Fin 128) (j : Fin 256) :
    matmul dot_S128x256_S256x256_S128x256_1_0_0_1_n_n none A B (constant S128x256 .f32 0x00000000#32) (ix2 r j)
      = ∑ k : Fin 256, A (ix2 r k) * B (ix2 k j) := by
  refine (Ideal.matmul_constant_zero_apply dot_S128x256_S256x256_S128x256_1_0_0_1_n_n none A B (ix2 r j)).trans ?_
  rw [← Equiv.sum_comp (contrEquiv1 dot_S128x256_S256x256_S128x256_1_0_0_1_n_n 256 rfl rfl).symm]
  refine Finset.sum_congr rfl fun k _ => ?_
  have hk := contrEquiv1_symm_val dot_S128x256_S256x256_S128x256_1_0_0_1_n_n 256 rfl rfl k
  have el : dot_S128x256_S256x256_S128x256_1_0_0_1_n_n.lhsIdx (ix2 r j) ((contrEquiv1 dot_S128x256_S256x256_S128x256_1_0_0_1_n_n 256 rfl rfl).symm k) = ix2 r k := funext fun a => Fin.ext (by
    match a with
    | ⟨0, _⟩ => exact lhs_h1_0 _ _
    | ⟨1, _⟩ => exact (lhs_h1_1 _ _).trans hk)
  have er : dot_S128x256_S256x256_S128x256_1_0_0_1_n_n.rhsIdx (ix2 r j) ((contrEquiv1 dot_S128x256_S256x256_S128x256_1_0_0_1_n_n 256 rfl rfl).symm k) = ix2 k j := funext fun a => Fin.ext (by
    match a with
    | ⟨0, _⟩ => exact (rhs_h1_0 _ _).trans hk
    | ⟨1, _⟩ => exact rhs_h1_1 _ _)
  rw [el, er]

/-! ### The product `[128,256] × [256,1]`: its operand indices by coordinates, and the product at an index -/

theorem lhs_h2_0 (i : S128x1.Idx) (q : dot_S128x256_S256x1_S128x1_1_0_0_1_n_n.contr.Idx) :
    (dot_S128x256_S256x1_S128x1_1_0_0_1_n_n.lhsIdx i q 0).val = (i 0).val := by
  unfold DotDims.lhsIdx
  rw [dif_neg (show ¬(0 : Fin S128x256.rank) ∈ dot_S128x256_S256x1_S128x1_1_0_0_1_n_n.lhsBatch by decide), dif_pos (show (0 : Fin S128x256.rank) ∈ dot_S128x256_S256x1_S128x1_1_0_0_1_n_n.lhsNonContracting by decide)]
  rfl
theorem lhs_h2_1 (i : S128x1.Idx) (q : dot_S128x256_S256x1_S128x1_1_0_0_1_n_n.contr.Idx) :
    (dot_S128x256_S256x1_S128x1_1_0_0_1_n_n.lhsIdx i q 1).val = (q ⟨0, by decide⟩).val :=
  dot_S128x256_S256x1_S128x1_1_0_0_1_n_n.lhsIdx_val_of_single rfl i q
theorem rhs_h2_0 (i : S128x1.Idx) (q : dot_S128x256_S256x1_S128x1_1_0_0_1_n_n.contr.Idx) :
    (dot_S128x256_S256x1_S128x1_1_0_0_1_n_n.rhsIdx i q 0).val = (q ⟨0, by decide⟩).val :=
  dot_S128x256_S256x1_S128x1_1_0_0_1_n_n.rhsIdx_val_of_single rfl i q
theorem rhs_h2_1 (i : S128x1.Idx) (q : dot_S128x256_S256x1_S128x1_1_0_0_1_n_n.contr.Idx) :
    (dot_S128x256_S256x1_S128x1_1_0_0_1_n_n.rhsIdx i q 1).val = (i 1).val := by
  unfold DotDims.rhsIdx
  rw [dif_neg (show ¬(1 : Fin S256x1.rank) ∈ dot_S128x256_S256x1_S128x1_1_0_0_1_n_n.rhsBatch by decide), dif_pos (show (1 : Fin S256x1.rank) ∈ dot_S128x256_S256x1_S128x1_1_0_0_1_n_n.rhsNonContracting by decide)]
  rfl

/-- Into the zero accumulator the product at `(r, j)` is `∑ k, A (r, k) * B (k, j)`. -/
theorem matmul_h2_apply {φ₁ φ₂ : FTy} (A : FVec Ideal S128x256 φ₁) (B : FVec Ideal S256x1 φ₂) (r : Fin 128) (j : Fin 1) :
    matmul dot_S128x256_S256x1_S128x1_1_0_0_1_n_n none A B (constant S128x1 .f32 0x00000000#32) (ix2 r j)
      = ∑ k : Fin 256, A (ix2 r k) * B (ix2 k j) := by
  refine (Ideal.matmul_constant_zero_apply dot_S128x256_S256x1_S128x1_1_0_0_1_n_n none A B (ix2 r j)).trans ?_
  rw [← Equiv.sum_comp (contrEquiv1 dot_S128x256_S256x1_S128x1_1_0_0_1_n_n 256 rfl rfl).symm]
  refine Finset.sum_congr rfl fun k _ => ?_
  have hk := contrEquiv1_symm_val dot_S128x256_S256x1_S128x1_1_0_0_1_n_n 256 rfl rfl k
  have el : dot_S128x256_S256x1_S128x1_1_0_0_1_n_n.lhsIdx (ix2 r j) ((contrEquiv1 dot_S128x256_S256x1_S128x1_1_0_0_1_n_n 256 rfl rfl).symm k) = ix2 r k := funext fun a => Fin.ext (by
    match a with
    | ⟨0, _⟩ => exact lhs_h2_0 _ _
    | ⟨1, _⟩ => exact (lhs_h2_1 _ _).trans hk)
  have er : dot_S128x256_S256x1_S128x1_1_0_0_1_n_n.rhsIdx (ix2 r j) ((contrEquiv1 dot_S128x256_S256x1_S128x1_1_0_0_1_n_n 256 rfl rfl).symm k) = ix2 k j := funext fun a => Fin.ext (by
    match a with
    | ⟨0, _⟩ => exact (rhs_h2_0 _ _).trans hk
    | ⟨1, _⟩ => exact rhs_h2_1 _ _)
  rw [el, er]

/-! ## The head: two dense layers on the pooled accumulator -/

/-- The head at `(g, 0)`: the first dense layer's row `g` (cut at zero) times the second layer's column, plus its bias. -/
theorem k2_pay3_apply (v24 : Vec Ideal S128x256 .f32) (v26 : Vec Ideal S256x256 .f32) (v29 : Vec Ideal S1x256 .f32) (v36 : Vec Ideal S256x1 .f32) (v39 : Vec Ideal S1x1 .f32) (g : Fin 128) :
    k2_pay3 (F := Ideal) v24 v26 v29 v36 v39 (ix2 g (0 : Fin 1)) = (∑ k : Fin 256, max ((∑ j : Fin 256, v24 (ix2 g j) * v26 (ix2 j k)) + v29 (ix2 (0 : Fin 1) k)) 0 * v36 (ix2 k (0 : Fin 1))) + v39 (ix2 (0 : Fin 1) (0 : Fin 1)) := by
  unfold k2_pay3
  rw [shapeCast_self, shapeCast_self]
  refine (addf_apply _ _ _).trans ?_
  refine congrArg₂ (· + ·) ?_ ?_
  · refine (matmul_h2_apply _ _ g (0 : Fin 1)).trans ?_
    refine Finset.sum_congr rfl fun k _ => ?_
    refine congrArg₂ (· * ·) ?_ rfl
    refine (maximumf_apply _ _ _).trans ?_
    refine congrArg₂ max ?_ Ideal.ofBits_zero_f32
    refine (addf_apply _ _ _).trans ?_
    refine congrArg₂ (· + ·) ?_ ?_
    · exact matmul_h1_apply _ _ g k
    · exact broadcastTo_1b_ab_apply _ _ g k
  · exact broadcastTo_1b_ab_apply _ _ g (0 : Fin 1)

/-! ### The product `[128,5000] × [5000,256]`: its operand indices by coordinates, and the product at an index -/

theorem lhs_pool_0 (i : S128x256.Idx) (q : dot_S128x5000_S5000x256_S128x256_1_0_0_1_n_n.contr.Idx) :
    (dot_S128x5000_S5000x256_S128x256_1_0_0_1_n_n.lhsIdx i q 0).val = (i 0).val := by
  unfold DotDims.lhsIdx
  rw [dif_neg (show ¬(0 : Fin S128x5000.rank) ∈ dot_S128x5000_S5000x256_S128x256_1_0_0_1_n_n.lhsBatch by decide), dif_pos (show (0 : Fin S128x5000.rank) ∈ dot_S128x5000_S5000x256_S128x256_1_0_0_1_n_n.lhsNonContracting by decide)]
  rfl
theorem lhs_pool_1 (i : S128x256.Idx) (q : dot_S128x5000_S5000x256_S128x256_1_0_0_1_n_n.contr.Idx) :
    (dot_S128x5000_S5000x256_S128x256_1_0_0_1_n_n.lhsIdx i q 1).val = (q ⟨0, by decide⟩).val :=
  dot_S128x5000_S5000x256_S128x256_1_0_0_1_n_n.lhsIdx_val_of_single rfl i q
theorem rhs_pool_0 (i : S128x256.Idx) (q : dot_S128x5000_S5000x256_S128x256_1_0_0_1_n_n.contr.Idx) :
    (dot_S128x5000_S5000x256_S128x256_1_0_0_1_n_n.rhsIdx i q 0).val = (q ⟨0, by decide⟩).val :=
  dot_S128x5000_S5000x256_S128x256_1_0_0_1_n_n.rhsIdx_val_of_single rfl i q
theorem rhs_pool_1 (i : S128x256.Idx) (q : dot_S128x5000_S5000x256_S128x256_1_0_0_1_n_n.contr.Idx) :
    (dot_S128x5000_S5000x256_S128x256_1_0_0_1_n_n.rhsIdx i q 1).val = (i 1).val := by
  unfold DotDims.rhsIdx
  rw [dif_neg (show ¬(1 : Fin S5000x256.rank) ∈ dot_S128x5000_S5000x256_S128x256_1_0_0_1_n_n.rhsBatch by decide), dif_pos (show (1 : Fin S5000x256.rank) ∈ dot_S128x5000_S5000x256_S128x256_1_0_0_1_n_n.rhsNonContracting by decide)]
  rfl

/-- Into the zero accumulator the product at `(r, j)` is `∑ k, A (r, k) * B (k, j)`. -/
theorem matmul_pool_apply {φ₁ φ₂ : FTy} (A : FVec Ideal S128x5000 φ₁) (B : FVec Ideal S5000x256 φ₂) (r : Fin 128) (j : Fin 256) :
    matmul dot_S128x5000_S5000x256_S128x256_1_0_0_1_n_n none A B (constant S128x256 .f32 0x00000000#32) (ix2 r j)
      = ∑ k : Fin 5000, A (ix2 r k) * B (ix2 k j) := by
  refine (Ideal.matmul_constant_zero_apply dot_S128x5000_S5000x256_S128x256_1_0_0_1_n_n none A B (ix2 r j)).trans ?_
  rw [← Equiv.sum_comp (contrEquiv1 dot_S128x5000_S5000x256_S128x256_1_0_0_1_n_n 5000 rfl rfl).symm]
  refine Finset.sum_congr rfl fun k _ => ?_
  have hk := contrEquiv1_symm_val dot_S128x5000_S5000x256_S128x256_1_0_0_1_n_n 5000 rfl rfl k
  have el : dot_S128x5000_S5000x256_S128x256_1_0_0_1_n_n.lhsIdx (ix2 r j) ((contrEquiv1 dot_S128x5000_S5000x256_S128x256_1_0_0_1_n_n 5000 rfl rfl).symm k) = ix2 r k := funext fun a => Fin.ext (by
    match a with
    | ⟨0, _⟩ => exact lhs_pool_0 _ _
    | ⟨1, _⟩ => exact (lhs_pool_1 _ _).trans hk)
  have er : dot_S128x5000_S5000x256_S128x256_1_0_0_1_n_n.rhsIdx (ix2 r j) ((contrEquiv1 dot_S128x5000_S5000x256_S128x256_1_0_0_1_n_n 5000 rfl rfl).symm k) = ix2 k j := funext fun a => Fin.ext (by
    match a with
    | ⟨0, _⟩ => exact (rhs_pool_0 _ _).trans hk
    | ⟨1, _⟩ => exact rhs_pool_1 _ _)
  rw [el, er]

/-! ## The pooling step -/

/-- A `[a, 1]` column broadcast to `[a, b]` reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A number below `2 ^ 31` written as a 32-bit word and read signed is the number. -/
theorem toInt_ofNat_small (g : ℕ) (hg : g < 2 ^ 31) : (BitVec.ofNat 32 g).toInt = (g : ℤ) := by
  rw [BitVec.toInt_eq_toNat_cond, BitVec.toNat_ofNat]
  have h32 : (2 : ℕ) ^ 32 = 4294967296 := by norm_num
  have h31 : (2 : ℕ) ^ 31 = 2147483648 := by norm_num
  rw [h31] at hg
  rw [h32]
  have hm : g % 4294967296 = g := Nat.mod_eq_of_lt (by omega)
  rw [hm, if_pos (by omega)]

/-- A word equals the word of a small number exactly when, read signed, it is that number. -/
theorem eq_ofNat_iff_toInt (s : BitVec 32) (g : ℕ) (hg : g < 2 ^ 31) : s = BitVec.ofNat 32 g ↔ s.toInt = (g : ℤ) :=
  ⟨fun h => h ▸ toInt_ofNat_small g hg, fun h => BitVec.eq_of_toInt_eq (h.trans (toInt_ofNat_small g hg).symm)⟩

/-- The comparison "word = g" widened and converted is the indicator of "the word read signed is `g`". -/
theorem indicator_word (s : BitVec 32) (g : Fin 128) :
    (FloatOps.sitofp .f32 ((IntOp.cmpi .eq s (BitVec.ofNat 32 g.val)).setWidth 32) : Ideal .f32)
      = if s.toInt = (g.val : ℤ) then (1 : EReal) else 0 := by
  show ((((IntOp.cmpi .eq s (BitVec.ofNat 32 g.val)).setWidth 32).toInt : ℝ) : EReal) = _
  rw [toInt_setWidth_bit]
  have hiff := eq_ofNat_iff_toInt s g.val (lt_trans g.isLt (by norm_num))
  by_cases h : s = BitVec.ofNat 32 g.val
  · rw [if_pos (hiff.mp h)]
    subst h
    simp [IntOp.cmpi]
  · rw [if_neg (mt hiff.mpr h)]
    simp [IntOp.cmpi, h]

/-- The pooling step at `(g, j)`: the old accumulator plus the sum, over the rows of graph `g`, of the rows' entries at `j`. -/
theorem k2_pay2_apply (v3 : Vec Ideal S5000x1 .i32) (v11 : Vec Ideal S5000x256 .f32) (v16 : Vec Ideal S128x256 .f32) (g : Fin 128) (j : Fin 256) :
    k2_pay2 (F := Ideal) v3 v11 v16 (ix2 g j) = v16 (ix2 g j) + ∑ r : Fin 5000, (if (v3 (ix2 r (0 : Fin 1))).toInt = (g.val : ℤ) then (1 : EReal) else 0) * v11 (ix2 r j) := by
  unfold k2_pay2
  rw [shapeCast_self, shapeCast_self, shapeCast_self]
  refine (addf_apply _ _ _).trans ?_
  refine congrArg₂ (· + ·) rfl ?_
  refine (matmul_pool_apply _ _ g j).trans ?_
  refine Finset.sum_congr rfl fun r _ => ?_
  refine congrArg₂ (· * ·) ?_ rfl
  refine (transpose_ix2_apply _ _ g r).trans ?_
  refine (truncf_apply (φ := .f32) (ψ := .bf16) _ bitsLt_bf16_f32 (ix2 r g)).trans ?_
  refine (sitofp_apply _ _).trans ?_
  refine Eq.trans ?_ (indicator_word (v3 (ix2 r (0 : Fin 1))) g)
  refine congrArg (fun w : BitVec 32 => (FloatOps.sitofp .f32 w : Ideal .f32)) ?_
  refine (extui_apply _ _ _).trans ?_
  refine congrArg (fun b : BitVec 1 => b.setWidth 32) ?_
  show IntOp.cmpi .eq _ _ = IntOp.cmpi .eq _ _
  refine congrArg₂ (IntOp.cmpi .eq) ?_ ?_
  · exact broadcastTo_a1_ab_apply _ _ r g
  · exact iota_single_apply .tc S5000x128 32 1 _ (ix2 r g)

end Cert.KernelIdeal.Pay

end
-- ==== Proof.Spec.lean ====
/-
  What the two programs compute, written once over plain finite index sets.

  A graph-convolution layer looks rows of a feature table up along the edges, scales each looked-up row by its
  edge's weight, sums the scaled rows into the node each edge lands on, multiplies by a weight matrix, adds a bias
  and clips at zero. One program sums first and multiplies after (`layerK`), the other multiplies first and sums
  after (`layerR`); on real numbers the two agree, because a finite sum commutes with a product by a fixed factor.
  The pooled head sums the node rows of each graph (`poolSum`: one program adds them tile by tile through a 0/1
  matrix, the other adds the rows whose graph id is the group's) and applies two dense layers (`headF`).
-/
import Mathlib.Data.EReal.Operations
import Mathlib.Algebra.BigOperators.Group.Finset.Basic
import Mathlib.Algebra.BigOperators.Fin

noncomputable section

namespace Cert.Gcn2

open scoped BigOperators

/-- An extended real that is a real number. -/
def IsReal (x : EReal) : Prop := ∃ r : ℝ, x = (r : EReal)

section Layer

variable {E N K H : Type} [Fintype K]

/-- Sum along the edges first, then multiply by the weights: entry `(n, j)`. -/
def layerK (src : E → N) (lands : N → Finset E) (w : E → EReal) (feat : N → K → EReal) (W : K → H → EReal) (b : H → EReal)
    (n : N) (j : H) : EReal :=
  max ((∑ k : K, (0 + ∑ e ∈ lands n, feat (src e) k * w e) * W k j) + b j) 0

/-- Multiply by the weights first, then sum along the edges: entry `(n, j)`. -/
def layerR (src : E → N) (lands : N → Finset E) (w : E → EReal) (feat : N → K → EReal) (W : K → H → EReal) (b : H → EReal)
    (n : N) (j : H) : EReal :=
  max ((0 + ∑ e ∈ lands n, (∑ k : K, feat (src e) k * W k j) * w e) + b j) 0

end Layer

/-- The sum over the nodes whose graph id is `g` of their rows: entry `(g, j)`. -/
def poolSum (seg : Fin 50000 → ℤ) (h : Fin 50000 → Fin 256 → EReal) (g : Fin 128) (j : Fin 256) : EReal :=
  0 + ∑ n ∈ Finset.univ.filter (fun n : Fin 50000 => seg n = (g.val : ℤ)), h n j

/-- Node `r` of tile `t` (tiles of 5000 nodes). -/
def tileNode (t : Fin 10) (r : Fin 5000) : Fin 50000 := ⟨t.val * 5000 + 1 * r.val, by have := t.isLt; have := r.isLt; omega⟩

/-- One tile's contribution to the pooled sums: the 0/1 matrix "node r of the tile belongs to graph g", transposed,
    times the tile's rows. -/
def tileTerm (oh : Fin 50000 → Fin 128 → EReal) (h : Fin 50000 → Fin 256 → EReal) (t : Fin 10) (g : Fin 128) (j : Fin 256) : EReal :=
  ∑ r : Fin 5000, oh (tileNode t r) g * h (tileNode t r) j

/-- The accumulator after tile `t`: cleared before the first tile, each tile's contribution added in turn. -/
def tileAcc (oh : Fin 50000 → Fin 128 → EReal) (h : Fin 50000 → Fin 256 → EReal) : (t : ℕ) → t < 10 → Fin 128 → Fin 256 → EReal
  | 0, ht => fun g j => 0 + tileTerm oh h ⟨0, ht⟩ g j
  | t + 1, ht => fun g j => tileAcc oh h t (Nat.lt_of_succ_lt ht) g j + tileTerm oh h ⟨t + 1, ht⟩ g j

/-- The two dense layers on the pooled sums: entry `g`. -/
def headF (acc : Fin 128 → Fin 256 → EReal) (Wd : Fin 256 → Fin 256 → EReal) (bd : Fin 256 → EReal) (Wo : Fin 256 → EReal) (bo : EReal)
    (g : Fin 128) : EReal :=
  (∑ k : Fin 256, max ((∑ j : Fin 256, acc g j * Wd j k) + bd k) 0 * Wo k) + bo

end Cert.Gcn2

end
-- ==== Proof.SpecIdx.lean ====
/-
  The two programs' results as functions of their argument arrays, over the plain-index forms of Spec.lean.

  An edge's source row is the source word, already wrapped once where negative, read signed and clamped into
  [0, 49999] (what a row lookup does with an out-of-range start); an edge lands on node n when its destination word,
  read signed, is n (a word outside [0, 50000) lands nowhere); a node's graph is its graph-id word read signed.
-/
import proofs.«413475_j11897059410286_1_alg».proof.Proof.Spec
import Idealize.ShloMosaic.Lib.ValueIdx
import Idealize.ShloMosaic.PureOps.Ideal

noncomputable section

namespace Cert.Gcn2

open Idealize.ShloMosaic Idealize.ShloMosaic.ValueIdx

/-- A rank-2 array of extended reals as a function of its two coordinates. -/
abbrev c2 {a b : Nat} (x : (⟨2, ![a, b]⟩ : Shape).Idx → EReal) : Fin a → Fin b → EReal := fun i j => x (ix2 i j)
/-- A rank-1 array of extended reals as a function of its coordinate. -/
abbrev c1 {a : Nat} (x : (⟨1, ![a]⟩ : Shape).Idx → EReal) : Fin a → EReal := fun i => x (ix1 i)

/-- The source words wrapped once where negative (an index below zero counts from the end of the 50000 rows), as both
    programs compute them on the host. -/
def wrapIdx (hb : (⟨0, ![]⟩ : Shape).BroadcastsInDim ⟨1, ![800000]⟩ (![] : Fin 0 → Fin 1)) (a1 : IVec ⟨1, ![800000]⟩ 32) : IVec ⟨1, ![800000]⟩ 32 :=
  select (cmpi .slt a1 (broadcastInDim ⟨1, ![800000]⟩ ![] hb (constantI ⟨0, ![]⟩ 32 0#32)))
    (addi a1 (broadcastInDim ⟨1, ![800000]⟩ ![] hb (constantI ⟨0, ![]⟩ 32 50000#32))) a1

/-- The row edge `e` looks up, from the wrapped source words. -/
def srcOf (nidx : (⟨1, ![800000]⟩ : Shape).Idx → BitVec 32) (e : Fin 800000) : Fin 50000 :=
  ⟨min (nidx (ix1 e)).toInt.toNat (50000 - 1), by omega⟩

/-- The edges that land on node `n`, from the destination words. -/
def landsOf (a2 : (⟨1, ![800000]⟩ : Shape).Idx → BitVec 32) (n : Fin 50000) : Finset (Fin 800000) :=
  Finset.univ.filter (fun e : Fin 800000 => (a2 (ix1 e)).toInt = (n.val : ℤ))

/-- Node `n`'s graph, from the graph-id words. -/
def segOf (a4 : (⟨1, ![50000]⟩ : Shape).Idx → BitVec 32) (n : Fin 50000) : ℤ := (a4 (ix1 n)).toInt

section
variable (nidx a2 : (⟨1, ![800000]⟩ : Shape).Idx → BitVec 32) (a4 : (⟨1, ![50000]⟩ : Shape).Idx → BitVec 32)
  (x : (⟨2, ![50000, 128]⟩ : Shape).Idx → EReal) (w : (⟨1, ![800000]⟩ : Shape).Idx → EReal)
  (W1 : (⟨2, ![128, 256]⟩ : Shape).Idx → EReal) (b1 : (⟨1, ![256]⟩ : Shape).Idx → EReal)
  (W2 : (⟨2, ![256, 256]⟩ : Shape).Idx → EReal) (b2 : (⟨1, ![256]⟩ : Shape).Idx → EReal)
  (Wd : (⟨2, ![256, 256]⟩ : Shape).Idx → EReal) (bd : (⟨1, ![256]⟩ : Shape).Idx → EReal)
  (Wo : (⟨2, ![256, 1]⟩ : Shape).Idx → EReal) (bo : (⟨1, ![1]⟩ : Shape).Idx → EReal)

/-- The kernel program's two layers (sum along the edges, then multiply). -/
def kerH1 : Fin 50000 → Fin 256 → EReal := layerK (srcOf nidx) (landsOf a2) (c1 w) (c2 x) (c2 W1) (c1 b1)
def kerH2 : Fin 50000 → Fin 256 → EReal := layerK (srcOf nidx) (landsOf a2) (c1 w) (kerH1 nidx a2 x w W1 b1) (c2 W2) (c1 b2)
/-- The reference program's two layers (multiply, then sum along the edges). -/
def refH1 : Fin 50000 → Fin 256 → EReal := layerR (srcOf nidx) (landsOf a2) (c1 w) (c2 x) (c2 W1) (c1 b1)
def refH2 : Fin 50000 → Fin 256 → EReal := layerR (srcOf nidx) (landsOf a2) (c1 w) (refH1 nidx a2 x w W1 b1) (c2 W2) (c1 b2)

/-- The 0/1 matrix "node n belongs to graph g". -/
def oneHot (n : Fin 50000) (g : Fin 128) : EReal := if segOf a4 n = (g.val : ℤ) then 1 else 0

/-- The kernel program's result, entry `g`: the tile-by-tile pooled sums through the dense head. -/
def kerOut (g : Fin 128) : EReal :=
  headF (tileAcc (oneHot a4) (kerH2 nidx a2 x w W1 b1 W2 b2) 9 (by omega)) (c2 Wd) (c1 bd) (fun k => Wo (ix2 k (0 : Fin 1))) (bo (ix1 (0 : Fin 1))) g

/-- The reference program's result, entry `g`: the per-graph sums through the dense head. -/
def refOut (g : Fin 128) : EReal :=
  headF (poolSum (segOf a4) (refH2 nidx a2 x w W1 b1 W2 b2)) (c2 Wd) (c1 bd) (fun k => Wo (ix2 k (0 : Fin 1))) (bo (ix1 (0 : Fin 1))) g

end

end Cert.Gcn2

end
-- ==== Proof.KI.Fin0.lean ====
/-
  The first matrix-product launch's output array, index by index, at the ideal instance: row n, column j holds
  max(Σ_k in(n, k) · weights(k, j) + bias(j), 0), where `in`, `weights` and `bias` are the launch's three input arrays
  as it finds them. Block t of the output is rows 5000·t … 5000·t + 4999, computed from the same rows of the input.
-/
import proofs.«413475_j11897059410286_1_alg».proof.Proof.KI.R0
import proofs.«413475_j11897059410286_1_alg».proof.Proof.KI.Pay
import proofs.«413475_j11897059410286_1_alg».proof.Proof.SpecIdx
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Gcn2

variable (V : (c : Dev nD) → (b : Ref sig .tc) → Buf (Elt Ideal) ((c : Thread nD τ).loc b))

theorem hz_0 : (![0, 0] : Fin 2 → Nat) = fun _ => 0 := funext fun a => by fin_cases a <;> rfl

/-- The windows' block indices, decided over the grid: the input rows' and the output's blocks move down with the
    point; the weights and the bias are their whole arrays. -/
theorem idx_facts0 : ∀ t : Fin cfg0.N, win0_0.index t (0 : Fin 2) = t.val ∧ win0_0.index t (1 : Fin 2) = 0
    ∧ (win0_1.index t (0 : Fin 2) = 0 ∧ win0_1.index t (1 : Fin 2) = 0) ∧ (win0_2.index t (0 : Fin 2) = 0 ∧ win0_2.index t (1 : Fin 2) = 0)
    ∧ win0_3.index t (0 : Fin 2) = t.val ∧ win0_3.index t (1 : Fin 2) = 0 :=
  (by decide +kernel : ∀ t : Fin grid0.N, _)

/-- Row r of the input block at point t is row 5000·t + r of the input array. -/
theorem blkx0_apply (c : Dev nD) (t : Fin cfg0.N) (r : Fin 5000) (k : Fin 128) :
    iblk0 V c 0 t (ix2 r k) = V c main_v12 (ix2 (⟨t.val * 5000 + 1 * r.val, by have := lt_of_lt_of_eq t.isLt N_0; have := r.isLt; omega⟩ : Fin 50000) k) := by
  show V c main_v12 (((cfg0.win 0).blk t).view.emb (ix2 r k)) = _
  refine congrArg (V c main_v12) ?_
  obtain ⟨e0, e1, -⟩ := idx_facts0 t
  funext d; apply Fin.ext
  match d with
  | ⟨0, _⟩ => show win0_0.index t (0 : Fin 2) * 5000 + 1 * r.val = t.val * 5000 + 1 * r.val; rw [e0]
  | ⟨1, _⟩ => show win0_0.index t (1 : Fin 2) * 128 + 1 * k.val = k.val; rw [e1]; omega

theorem blkw0_apply (c : Dev nD) (t : Fin cfg0.N) (k : Fin 128) (j : Fin 256) :
    iblk0 V c 1 t (ix2 k j) = V c main_arg5 (ix2 k j) := by
  show V c main_arg5 (((cfg0.win 1).blk t).view.emb (ix2 k j)) = _
  refine congrArg (V c main_arg5) ?_
  obtain ⟨-, -, h1, -⟩ := idx_facts0 t
  funext d; apply Fin.ext
  match d with
  | ⟨0, _⟩ => show win0_1.index t (0 : Fin 2) * 128 + 1 * k.val = k.val; rw [h1.1]; omega
  | ⟨1, _⟩ => show win0_1.index t (1 : Fin 2) * 256 + 1 * j.val = j.val; rw [h1.2]; omega

theorem blkb0_apply (c : Dev nD) (t : Fin cfg0.N) (z : Fin 1) (j : Fin 256) :
    iblk0 V c 2 t (ix2 z j) = V c main_v13 (ix2 z j) := by
  show V c main_v13 (((cfg0.win 2).blk t).view.emb (ix2 z j)) = _
  refine congrArg (V c main_v13) ?_
  obtain ⟨-, -, -, h2, -⟩ := idx_facts0 t
  funext d; apply Fin.ext
  match d with
  | ⟨0, _⟩ => show win0_2.index t (0 : Fin 2) * 1 + 1 * z.val = z.val; rw [h2.1]; omega
  | ⟨1, _⟩ => show win0_2.index t (1 : Fin 2) * 256 + 1 * j.val = j.val; rw [h2.2]; omega

/-- The output array as one function of its index. -/
def G0 (c : Dev nD) : S50000x256.Idx → EReal := fun i =>
  max ((∑ k : Fin 128, c2 (V c main_v12) (⟨(i 0).val, (i 0).isLt⟩ : Fin 50000) k * c2 (V c main_arg5) k (⟨(i 1).val, (i 1).isLt⟩ : Fin 256))
    + c2 (V c main_v13) (0 : Fin 1) (⟨(i 1).val, (i 1).isLt⟩ : Fin 256)) 0

/-- What point t writes back is block t of that function. -/
theorem flushed0_eq (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero (S := S5000x256) hz_0]
  simp only [View.ld_unit_zero (S := S5000x128) hz_0, View.ld_unit_zero (S := S128x256) hz_0, View.ld_unit_zero (S := S1x256) hz_0]
  funext y
  obtain ⟨p, q, rfl⟩ : ∃ (p : Fin 5000) (q : Fin 256), y = ix2 p q := ⟨y 0, y 1, eq_ix2 y⟩
  show k0_pay1 (F := Ideal) _ _ _ (ix2 p q) = G0 V c (((cfg0.win 3).blk t).view.emb (ix2 p q))
  refine (Pay.k0_pay1_apply _ _ _ p q).trans ?_
  obtain ⟨-, -, -, -, e0, e1⟩ := idx_facts0 t
  have he0 : (((cfg0.win 3).blk t).view.emb (ix2 p q) 0).val = t.val * 5000 + 1 * p.val := by
    show win0_3.index t (0 : Fin 2) * 5000 + 1 * p.val = _; rw [e0]
  have he1 : (((cfg0.win 3).blk t).view.emb (ix2 p q) 1).val = q.val := by
    show win0_3.index t (1 : Fin 2) * 256 + 1 * q.val = _; rw [e1]; omega
  unfold G0
  rw [show (⟨(((cfg0.win 3).blk t).view.emb (ix2 p q) 0).val, (((cfg0.win 3).blk t).view.emb (ix2 p q) 0).isLt⟩ : Fin 50000)
      = ⟨t.val * 5000 + 1 * p.val, by have := lt_of_lt_of_eq t.isLt N_0; have := p.isLt; omega⟩ from Fin.ext he0,
    show (⟨(((cfg0.win 3).blk t).view.emb (ix2 p q) 1).val, (((cfg0.win 3).blk t).view.emb (ix2 p q) 1).isLt⟩ : Fin 256) = q from Fin.ext he1]
  simp only [blkx0_apply, blkw0_apply, blkb0_apply]
  try rfl

theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v14).slice (win0_3.rect t)).set ↔ _
  rw [View.set_slice_whole, Rect.mem_set_unit]
  exact Iff.rfl

/-- Every row is in the block of the point r / 5000. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  refine ⟨⟨(i 0).val / 5000, by rw [show cfg0.N = 10 from N_0]; omega⟩, flush0_3 _, ?_⟩
  rw [mem_blk0]
  obtain ⟨-, -, -, -, e0, e1⟩ := idx_facts0 ⟨(i 0).val / 5000, by rw [show cfg0.N = 10 from N_0]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 256 ≤ (i 1).val ∧ (i 1).val < win0_3.index _ (1 : Fin 2) * 256 + 256
    rw [e1]; omega

/-- THE OUTPUT ARRAY after the launch, read at (n, j). -/
theorem final0 (c : Dev nD) (n : Fin 50000) (j : Fin 256) :
    c2 ((dat0 V c).arrAt 3 cfg0.N) n j
      = max ((∑ k : Fin 128, c2 (V c main_v12) n k * c2 (V c main_arg5) k j) + c2 (V c main_v13) (0 : Fin 1) j) 0 := by
  rw [(dat0 V c).arrAt_eq_of_cover 3 (G0 V c) (fun t _ => flushed0_eq V c t) cover0]
  rfl

end Cert.KernelIdeal.Hand

end
-- ==== Proof.KI.Fin1.lean ====
/-
  The second matrix-product launch's output array, index by index, at the ideal instance: row n, column j holds
  max(Σ_k in(n, k) · weights(k, j) + bias(j), 0), where `in`, `weights` and `bias` are the launch's three input arrays
  as it finds them. Block t of the output is rows 5000·t … 5000·t + 4999, computed from the same rows of the input.
-/
import proofs.«413475_j11897059410286_1_alg».proof.Proof.KI.R1
import proofs.«413475_j11897059410286_1_alg».proof.Proof.KI.Pay
import proofs.«413475_j11897059410286_1_alg».proof.Proof.SpecIdx
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Gcn2

variable (V : (c : Dev nD) → (b : Ref sig .tc) → Buf (Elt Ideal) ((c : Thread nD τ).loc b))

theorem hz_1 : (![0, 0] : Fin 2 → Nat) = fun _ => 0 := funext fun a => by fin_cases a <;> rfl

/-- The windows' block indices, decided over the grid: the input rows' and the output's blocks move down with the
    point; the weights and the bias are their whole arrays. -/
theorem idx_facts1 : ∀ t : Fin cfg1.N, win1_0.index t (0 : Fin 2) = t.val ∧ win1_0.index t (1 : Fin 2) = 0
    ∧ (win1_1.index t (0 : Fin 2) = 0 ∧ win1_1.index t (1 : Fin 2) = 0) ∧ (win1_2.index t (0 : Fin 2) = 0 ∧ win1_2.index t (1 : Fin 2) = 0)
    ∧ win1_3.index t (0 : Fin 2) = t.val ∧ win1_3.index t (1 : Fin 2) = 0 :=
  (by decide +kernel : ∀ t : Fin grid1.N, _)

/-- Row r of the input block at point t is row 5000·t + r of the input array. -/
theorem blkx1_apply (c : Dev nD) (t : Fin cfg1.N) (r : Fin 5000) (k : Fin 256) :
    iblk1 V c 0 t (ix2 r k) = V c main_v27 (ix2 (⟨t.val * 5000 + 1 * r.val, by have := lt_of_lt_of_eq t.isLt N_1; have := r.isLt; omega⟩ : Fin 50000) k) := by
  show V c main_v27 (((cfg1.win 0).blk t).view.emb (ix2 r k)) = _
  refine congrArg (V c main_v27) ?_
  obtain ⟨e0, e1, -⟩ := idx_facts1 t
  funext d; apply Fin.ext
  match d with
  | ⟨0, _⟩ => show win1_0.index t (0 : Fin 2) * 5000 + 1 * r.val = t.val * 5000 + 1 * r.val; rw [e0]
  | ⟨1, _⟩ => show win1_0.index t (1 : Fin 2) * 256 + 1 * k.val = k.val; rw [e1]; omega

theorem blkw1_apply (c : Dev nD) (t : Fin cfg1.N) (k : Fin 256) (j : Fin 256) :
    iblk1 V c 1 t (ix2 k j) = V c main_arg7 (ix2 k j) := by
  show V c main_arg7 (((cfg1.win 1).blk t).view.emb (ix2 k j)) = _
  refine congrArg (V c main_arg7) ?_
  obtain ⟨-, -, h1, -⟩ := idx_facts1 t
  funext d; apply Fin.ext
  match d with
  | ⟨0, _⟩ => show win1_1.index t (0 : Fin 2) * 256 + 1 * k.val = k.val; rw [h1.1]; omega
  | ⟨1, _⟩ => show win1_1.index t (1 : Fin 2) * 256 + 1 * j.val = j.val; rw [h1.2]; omega

theorem blkb1_apply (c : Dev nD) (t : Fin cfg1.N) (z : Fin 1) (j : Fin 256) :
    iblk1 V c 2 t (ix2 z j) = V c main_v28 (ix2 z j) := by
  show V c main_v28 (((cfg1.win 2).blk t).view.emb (ix2 z j)) = _
  refine congrArg (V c main_v28) ?_
  obtain ⟨-, -, -, h2, -⟩ := idx_facts1 t
  funext d; apply Fin.ext
  match d with
  | ⟨0, _⟩ => show win1_2.index t (0 : Fin 2) * 1 + 1 * z.val = z.val; rw [h2.1]; omega
  | ⟨1, _⟩ => show win1_2.index t (1 : Fin 2) * 256 + 1 * j.val = j.val; rw [h2.2]; omega

/-- The output array as one function of its index. -/
def G1 (c : Dev nD) : S50000x256.Idx → EReal := fun i =>
  max ((∑ k : Fin 256, c2 (V c main_v27) (⟨(i 0).val, (i 0).isLt⟩ : Fin 50000) k * c2 (V c main_arg7) k (⟨(i 1).val, (i 1).isLt⟩ : Fin 256))
    + c2 (V c main_v28) (0 : Fin 1) (⟨(i 1).val, (i 1).isLt⟩ : Fin 256)) 0

/-- What point t writes back is block t of that function. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero (S := S5000x256) hz_1]
  simp only [View.ld_unit_zero (S := S5000x256) hz_1, View.ld_unit_zero (S := S256x256) hz_1, View.ld_unit_zero (S := S1x256) hz_1]
  funext y
  obtain ⟨p, q, rfl⟩ : ∃ (p : Fin 5000) (q : Fin 256), y = ix2 p q := ⟨y 0, y 1, eq_ix2 y⟩
  show k1_pay1 (F := Ideal) _ _ _ (ix2 p q) = G1 V c (((cfg1.win 3).blk t).view.emb (ix2 p q))
  refine (Pay.k1_pay1_apply _ _ _ p q).trans ?_
  obtain ⟨-, -, -, -, e0, e1⟩ := idx_facts1 t
  have he0 : (((cfg1.win 3).blk t).view.emb (ix2 p q) 0).val = t.val * 5000 + 1 * p.val := by
    show win1_3.index t (0 : Fin 2) * 5000 + 1 * p.val = _; rw [e0]
  have he1 : (((cfg1.win 3).blk t).view.emb (ix2 p q) 1).val = q.val := by
    show win1_3.index t (1 : Fin 2) * 256 + 1 * q.val = _; rw [e1]; omega
  unfold G1
  rw [show (⟨(((cfg1.win 3).blk t).view.emb (ix2 p q) 0).val, (((cfg1.win 3).blk t).view.emb (ix2 p q) 0).isLt⟩ : Fin 50000)
      = ⟨t.val * 5000 + 1 * p.val, by have := lt_of_lt_of_eq t.isLt N_1; have := p.isLt; omega⟩ from Fin.ext he0,
    show (⟨(((cfg1.win 3).blk t).view.emb (ix2 p q) 1).val, (((cfg1.win 3).blk t).view.emb (ix2 p q) 1).isLt⟩ : Fin 256) = q from Fin.ext he1]
  simp only [blkx1_apply, blkw1_apply, blkb1_apply]
  try rfl

theorem mem_blk1 (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v29).slice (win1_3.rect t)).set ↔ _
  rw [View.set_slice_whole, Rect.mem_set_unit]
  exact Iff.rfl

/-- Every row is in the block of the point r / 5000. -/
theorem cover1 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  refine ⟨⟨(i 0).val / 5000, by rw [show cfg1.N = 10 from N_1]; omega⟩, flush1_3 _, ?_⟩
  rw [mem_blk1]
  obtain ⟨-, -, -, -, e0, e1⟩ := idx_facts1 ⟨(i 0).val / 5000, by rw [show cfg1.N = 10 from N_1]; omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 256 ≤ (i 1).val ∧ (i 1).val < win1_3.index _ (1 : Fin 2) * 256 + 256
    rw [e1]; omega

/-- THE OUTPUT ARRAY after the launch, read at (n, j). -/
theorem final1 (c : Dev nD) (n : Fin 50000) (j : Fin 256) :
    c2 ((dat1 V c).arrAt 3 cfg1.N) n j
      = max ((∑ k : Fin 256, c2 (V c main_v27) n k * c2 (V c main_arg7) k j) + c2 (V c main_v28) (0 : Fin 1) j) 0 := by
  rw [(dat1 V c).arrAt_eq_of_cover 3 (G1 V c) (fun t _ => flushed1_eq V c t) cover1]
  rfl

end Cert.KernelIdeal.Hand

end
-- ==== Proof.KI.Pieces.lean ====
/-
  The pooling launch: what each kind of grid point leaves in the accumulator and in the output block, as the
  kernel body's payloads of the values it loads.

  At every point the last store into the accumulator goes through the whole-buffer rectangle, so the accumulator
  ends holding that store's payload: the old accumulator plus this point's product (at the first point the old
  accumulator is the zero block the clearing store left, read back by the load that follows it).  At the last
  point the output block likewise holds the payload of its one store: the two dense layers applied to the
  accumulator just written.  Every load is through a whole-buffer rectangle and reads the buffer's contents.
-/
import proofs.«413475_j11897059410286_1_alg».proof.Proof.KI.R2
import Idealize.ShloMosaic.Lib.Pipeline.FrameBody
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-two rectangle, however spelt. -/
theorem hz2 : (![0, 0] : Fin 2 → Nat) = fun _ => 0 := funext fun a => by fin_cases a <;> rfl

/-- A middle point leaves the old accumulator plus this point's product. -/
theorem sout2_B_eq (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : ¬cond2_1 i)
    (x0 : Vec F S5000x256 .f32) (x1 : Vec F S5000x1 .i32) (xs0 : Vec F S128x256 .f32) :
    sout2_B c i arg1 harg1 arg2 harg2 arg3 harg3 arg4 harg4 arg5 harg5 arg6 harg6 arg7 harg7 arg8 harg8 hc0 hc1 x0 x1 xs0 = k2_pay2 x1 x0 xs0 := by
  unfold sout2_B
  rw [View.read_writes_eq_canon _ _ _ (scover2_B c i arg1 harg1 arg2 harg2 arg3 harg3 arg4 harg4 arg5 harg5 arg6 harg6 arg7 harg7 arg8 harg8 hc0 hc1 x0 x1 xs0)]
  unfold kernelRun2_B
  dsimp only
  sl_unfold_words
  rw [View.canon_unit_zero (S := S128x256) hz2]
  simp only [View.readAt_eq_ld, harg1.read_unread, harg2.read_unread, harg8.read_unread,
    View.ld_unit_zero (S := S5000x256) hz2, View.ld_unit_zero (S := S5000x1) hz2, View.ld_unit_zero (S := S128x256) hz2]

/-- The first point clears the accumulator and then leaves the zero block plus its product: the load after the
    clearing store reads the zero block back. -/
theorem sout2_A_eq (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : cond2_0 i) (hc1 : ¬cond2_1 i)
    (x0 : Vec F S5000x256 .f32) (x1 : Vec F S5000x1 .i32) :
    sout2_A c i arg1 harg1 arg2 harg2 arg3 harg3 arg4 harg4 arg5 harg5 arg6 harg6 arg7 harg7 arg8 harg8 hc0 hc1 x0 x1 = k2_pay2 x1 x0 (k2_pay1 (F := F)) := by
  unfold sout2_A
  rw [View.read_writes_eq_canon _ _ _ (scover2_A c i arg1 harg1 arg2 harg2 arg3 harg3 arg4 harg4 arg5 harg5 arg6 harg6 arg7 harg7 arg8 harg8 hc0 hc1 x0 x1)]
  unfold kernelRun2_A
  dsimp only
  sl_unfold_words
  rw [View.canon_cons_unit_zero (S := S128x256) hz2, View.readCov_unit_zero (S := S128x256) _ hz2]
  simp only [View.readAt_eq_ld, harg1.read_unread, harg2.read_unread,
    View.ld_unit_zero (S := S5000x256) hz2, View.ld_unit_zero (S := S5000x1) hz2]

/-- The last point leaves in the accumulator what a middle point does. -/
theorem sout2_C_eq (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) :
    sout2_C c i arg1 harg1 arg2 harg2 arg3 harg3 arg4 harg4 arg5 harg5 arg6 harg6 arg7 harg7 arg8 harg8 hc0 hc1 x0 x1 x2 x3 x4 x5 xs0 = k2_pay2 x1 x0 xs0 := by
  unfold sout2_C
  rw [View.read_writes_eq_canon _ _ _ (scover2_C c i arg1 harg1 arg2 harg2 arg3 harg3 arg4 harg4 arg5 harg5 arg6 harg6 arg7 harg7 arg8 harg8 hc0 hc1 x0 x1 x2 x3 x4 x5 xs0)]
  unfold kernelRun2_C
  dsimp only
  sl_unfold_words
  rw [View.canon_unit_zero (S := S128x256) hz2]
  simp only [View.readAt_eq_ld, harg1.read_unread, harg2.read_unread, harg8.read_unread,
    View.ld_unit_zero (S := S5000x256) hz2, View.ld_unit_zero (S := S5000x1) hz2, View.ld_unit_zero (S := S128x256) hz2]

/-- The last point leaves in the output block the two dense layers applied to the accumulator it has just
    written: the load after the accumulator's store reads that store's payload back. -/
theorem out2_C_eq (c : Dev nD) (i : grid2.Coords) (arg1 : Memref sig .tc .vmem S5000x256 .f32) (harg1 : arg1.IsWhole) (arg2 : Memref sig .tc .vmem S5000x1 .i32) (harg2 : arg2.IsWhole) (arg3 : Memref sig .tc .vmem S256x256 .f32) (harg3 : arg3.IsWhole) (arg4 : Memref sig .tc .vmem S1x256 .f32) (harg4 : arg4.IsWhole) (arg5 : Memref sig .tc .vmem S256x1 .f32) (harg5 : arg5.IsWhole) (arg6 : Memref sig .tc .vmem S1x1 .f32) (harg6 : arg6.IsWhole) (arg7 : Memref sig .tc .vmem S128x1 .f32) (harg7 : arg7.IsWhole) (arg8 : Memref sig .tc .vmem S128x256 .f32) (harg8 : arg8.IsWhole) (hc0 : ¬cond2_0 i) (hc1 : cond2_1 i)
    (x0 : Vec F S5000x256 .f32) (x1 : Vec F S5000x1 .i32) (x2 : Vec F S256x256 .f32) (x3 : Vec F S1x256 .f32) (x4 : Vec F S256x1 .f32) (x5 : Vec F S1x1 .f32) (xs0 : Vec F S128x256 .f32) :
    out2_C c i arg1 harg1 arg2 harg2 arg3 harg3 arg4 harg4 arg5 harg5 arg6 harg6 arg7 harg7 arg8 harg8 hc0 hc1 x0 x1 x2 x3 x4 x5 xs0 = k2_pay3 (k2_pay2 x1 x0 xs0) x2 x3 x4 x5 := by
  unfold out2_C
  rw [View.read_writes_eq_canon _ _ _ (cover2_C c i arg1 harg1 arg2 harg2 arg3 harg3 arg4 harg4 arg5 harg5 arg6 harg6 arg7 harg7 arg8 harg8 hc0 hc1 x0 x1 x2 x3 x4 x5 xs0)]
  unfold kernelRun2_C
  dsimp only
  sl_unfold_words
  rw [View.canon_unit_zero (S := S128x1) hz2, View.readCov_unit_zero (S := S128x256) _ hz2]
  simp only [View.readAt_eq_ld, harg1.read_unread, harg2.read_unread, harg3.read_unread, harg4.read_unread,
    harg5.read_unread, harg6.read_unread, harg8.read_unread,
    View.ld_unit_zero (S := S5000x256) hz2, View.ld_unit_zero (S := S5000x1) hz2, View.ld_unit_zero (S := S128x256) hz2,
    View.ld_unit_zero (S := S256x256) hz2, View.ld_unit_zero (S := S1x256) hz2, View.ld_unit_zero (S := S256x1) hz2,
    View.ld_unit_zero (S := S1x1) hz2]

end Cert.KernelIdeal.Hand

end
-- ==== Proof.KI.Fin2.lean ====
/-
  The pooling launch's result array, index by index, at the ideal instance: the accumulator after grid point t is
  the tile-by-tile pooled sum of the rows through the 0/1 matrix of graph membership, and the one block written back
  (at the last point) is the two dense layers applied to the full pooled sums.
-/
import proofs.«413475_j11897059410286_1_alg».proof.Proof.KI.R2
import proofs.«413475_j11897059410286_1_alg».proof.Proof.KI.Pieces
import proofs.«413475_j11897059410286_1_alg».proof.Proof.KI.Pay
import proofs.«413475_j11897059410286_1_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Gcn2

variable (V : (c : Dev nD) → (b : Ref sig .tc) → Buf (Elt Ideal) ((c : Thread nD τ).loc b))

/-- The windows' block indices, decided over the grid: the rows' and the graph ids' blocks move down with the point;
    every other window is its whole array. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ (win2_2.index t (0 : Fin 2) = 0 ∧ win2_2.index t (1 : Fin 2) = 0) ∧ (win2_3.index t (0 : Fin 2) = 0 ∧ win2_3.index t (1 : Fin 2) = 0)
    ∧ (win2_4.index t (0 : Fin 2) = 0 ∧ win2_4.index t (1 : Fin 2) = 0) ∧ (win2_5.index t (0 : Fin 2) = 0 ∧ win2_5.index t (1 : Fin 2) = 0)
    ∧ (win2_6.index t (0 : Fin 2) = 0 ∧ win2_6.index t (1 : Fin 2) = 0) :=
  (by decide +kernel : ∀ t : Fin grid2.N, _)

/-- The point as a tile number. -/
abbrev tileOf (t : Fin cfg2.N) : Fin 10 := ⟨t.val, lt_of_lt_of_eq t.isLt N_2⟩

/-- Row r of the rows' block at point t is row 5000·t + r of the array. -/
theorem blk0_apply (c : Dev nD) (t : Fin cfg2.N) (r : Fin 5000) (j : Fin 256) :
    iblk2 V c 0 t (ix2 r j) = V c main_v29 (ix2 (tileNode (tileOf t) r) j) := by
  show V c main_v29 (((cfg2.win 0).blk t).view.emb (ix2 r j)) = _
  refine congrArg (V c main_v29) ?_
  obtain ⟨e0, e1, -⟩ := idx_facts2 t
  funext d; apply Fin.ext
  match d with
  | ⟨0, _⟩ => show win2_0.index t (0 : Fin 2) * 5000 + 1 * r.val = t.val * 5000 + 1 * r.val; rw [e0]
  | ⟨1, _⟩ => show win2_0.index t (1 : Fin 2) * 256 + 1 * j.val = j.val; rw [e1]; omega

/-- Entry r of the graph ids' block at point t is entry 5000·t + r of the column. -/
theorem blk1_apply (c : Dev nD) (t : Fin cfg2.N) (r : Fin 5000) :
    iblk2 V c 1 t (ix2 r (0 : Fin 1)) = V c main_v30 (ix2 (tileNode (tileOf t) r) (0 : Fin 1)) := by
  show V c main_v30 (((cfg2.win 1).blk t).view.emb (ix2 r (0 : Fin 1))) = _
  refine congrArg (V c main_v30) ?_
  obtain ⟨-, -, e0, e1, -⟩ := idx_facts2 t
  funext d; apply Fin.ext
  match d with
  | ⟨0, _⟩ => show win2_1.index t (0 : Fin 2) * 5000 + 1 * r.val = t.val * 5000 + 1 * r.val; rw [e0]
  | ⟨1, _⟩ => show win2_1.index t (1 : Fin 2) * 1 + 1 * 0 = 0; rw [e1]

theorem blk2_apply (c : Dev nD) (t : Fin cfg2.N) (a : Fin 256) (b : Fin 256) :
    iblk2 V c 2 t (ix2 a b) = V c main_arg9 (ix2 a b) := by
  show V c main_arg9 (((cfg2.win 2).blk t).view.emb (ix2 a b)) = _
  refine congrArg (V c main_arg9) ?_
  obtain ⟨-, -, -, -, h2, h3, h4, h5, -⟩ := idx_facts2 t
  funext d; apply Fin.ext
  match d with
  | ⟨0, _⟩ => show win2_2.index t (0 : Fin 2) * 256 + 1 * a.val = a.val; rw [h2.1]; omega
  | ⟨1, _⟩ => show win2_2.index t (1 : Fin 2) * 256 + 1 * b.val = b.val; rw [h2.2]; omega

theorem blk3_apply (c : Dev nD) (t : Fin cfg2.N) (a : Fin 1) (b : Fin 256) :
    iblk2 V c 3 t (ix2 a b) = V c main_v31 (ix2 a b) := by
  show V c main_v31 (((cfg2.win 3).blk t).view.emb (ix2 a b)) = _
  refine congrArg (V c main_v31) ?_
  obtain ⟨-, -, -, -, h2, h3, h4, h5, -⟩ := idx_facts2 t
  funext d; apply Fin.ext
  match d with
  | ⟨0, _⟩ => show win2_3.index t (0 : Fin 2) * 1 + 1 * a.val = a.val; rw [h3.1]; omega
  | ⟨1, _⟩ => show win2_3.index t (1 : Fin 2) * 256 + 1 * b.val = b.val; rw [h3.2]; omega

theorem blk4_apply (c : Dev nD) (t : Fin cfg2.N) (a : Fin 256) (b : Fin 1) :
    iblk2 V c 4 t (ix2 a b) = V c main_arg11 (ix2 a b) := by
  show V c main_arg11 (((cfg2.win 4).blk t).view.emb (ix2 a b)) = _
  refine congrArg (V c main_arg11) ?_
  obtain ⟨-, -, -, -, h2, h3, h4, h5, -⟩ := idx_facts2 t
  funext d; apply Fin.ext
  match d with
  | ⟨0, _⟩ => show win2_4.index t (0 : Fin 2) * 256 + 1 * a.val = a.val; rw [h4.1]; omega
  | ⟨1, _⟩ => show win2_4.index t (1 : Fin 2) * 1 + 1 * b.val = b.val; rw [h4.2]; omega

theorem blk5_apply (c : Dev nD) (t : Fin cfg2.N) (a : Fin 1) (b : Fin 1) :
    iblk2 V c 5 t (ix2 a b) = V c main_v32 (ix2 a b) := by
  show V c main_v32 (((cfg2.win 5).blk t).view.emb (ix2 a b)) = _
  refine congrArg (V c main_v32) ?_
  obtain ⟨-, -, -, -, h2, h3, h4, h5, -⟩ := idx_facts2 t
  funext d; apply Fin.ext
  match d with
  | ⟨0, _⟩ => show win2_5.index t (0 : Fin 2) * 1 + 1 * a.val = a.val; rw [h5.1]; omega
  | ⟨1, _⟩ => show win2_5.index t (1 : Fin 2) * 1 + 1 * b.val = b.val; rw [h5.2]; omega

/-- The 0/1 matrix of graph membership and the rows, as the launch finds them. -/
def ohV (c : Dev nD) : Fin 50000 → Fin 128 → EReal := fun n g => if (V c main_v30 (ix2 n (0 : Fin 1))).toInt = (g.val : ℤ) then 1 else 0
def hV (c : Dev nD) : Fin 50000 → Fin 256 → EReal := fun n j => V c main_v29 (ix2 n j)

/-- One point's product, read at (g, j): the tile's contribution to the pooled sums. -/
theorem prod_apply (c : Dev nD) (t : Fin cfg2.N) (g : Fin 128) (j : Fin 256) :
    (∑ r : Fin 5000, (if (iblk2 V c 1 t (ix2 r (0 : Fin 1))).toInt = (g.val : ℤ) then (1 : EReal) else 0) * iblk2 V c 0 t (ix2 r j))
      = tileTerm (ohV V c) (hV V c) (tileOf t) g j := by
  unfold tileTerm ohV hV
  refine Finset.sum_congr rfl fun r _ => ?_
  rw [blk1_apply, blk0_apply]

/-- THE ACCUMULATOR after point n is the tile-by-tile pooled sum up to tile n. -/
theorem acc_apply (c : Dev nD) : ∀ (n : ℕ) (hn : n < cfg2.N) (g : Fin 128) (j : Fin 256),
    (outsAt2 V c n hn).2 (ix2 g j) = tileAcc (ohV V c) (hV V c) n (lt_of_lt_of_eq hn N_2) g j := by
  intro n
  induction n with
  | zero =>
    intro hn g j
    rw [show outsAt2 V c 0 hn = outsAt2 V c (⟨0, hn⟩ : Fin cfg2.N).val (⟨0, hn⟩ : Fin cfg2.N).isLt from rfl, outsAt2_A V c ⟨0, hn⟩ rfl]
    dsimp only
    rw [sout2_A_eq]
    refine (Pay.k2_pay2_apply _ _ _ g j).trans ?_
    rw [Pay.k2_pay1_apply, prod_apply]
    rfl
  | succ n ih =>
    intro hn g j
    have hn' : n < cfg2.N := Nat.lt_of_succ_lt hn
    by_cases h1 : n + 1 = 9
    · rw [show outsAt2 V c (n + 1) hn = outsAt2 V c (⟨n + 1, hn⟩ : Fin cfg2.N).val (⟨n + 1, hn⟩ : Fin cfg2.N).isLt from rfl,
        outsAt2_C V c ⟨n + 1, hn⟩ (Nat.succ_ne_zero n) h1]
      dsimp only
      rw [sout2_C_eq]
      refine (Pay.k2_pay2_apply _ _ _ g j).trans ?_
      rw [prod_apply]
      show (outsAt2 V c n _).2 (ix2 g j) + _ = tileAcc (ohV V c) (hV V c) n _ g j + _
      rw [ih hn' g j]
    · rw [show outsAt2 V c (n + 1) hn = outsAt2 V c (⟨n + 1, hn⟩ : Fin cfg2.N).val (⟨n + 1, hn⟩ : Fin cfg2.N).isLt from rfl,
        outsAt2_B V c ⟨n + 1, hn⟩ (Nat.succ_ne_zero n) h1]
      dsimp only
      rw [sout2_B_eq]
      refine (Pay.k2_pay2_apply _ _ _ g j).trans ?_
      rw [prod_apply]
      show (outsAt2 V c n _).2 (ix2 g j) + _ = tileAcc (ohV V c) (hV V c) n _ g j + _
      rw [ih hn' g j]

/-- The result array as one function of its index: the dense head on the full pooled sums. -/
def G2 (c : Dev nD) : S128x1.Idx → EReal := fun i =>
  headF (tileAcc (ohV V c) (hV V c) 9 (by omega)) (fun j k => V c main_arg9 (ix2 j k)) (fun k => V c main_v31 (ix2 (0 : Fin 1) k))
    (fun k => V c main_arg11 (ix2 k (0 : Fin 1))) (V c main_v32 (ix2 (0 : Fin 1) (0 : Fin 1))) ⟨(i 0).val, (i 0).isLt⟩

/-- The last point's block. -/
abbrev tLast : Fin cfg2.N := ⟨9, by rw [show cfg2.N = 10 from N_2]; omega⟩

/-- What the last point writes back is the whole result. -/
theorem flushed2_eq (c : Dev nD) (t : Fin cfg2.N) (hf : (cfg2.win 6).flush t = true) :
    (dat2 V c).flushed 6 t = ((cfg2.win 6).blk t).view.read (Elt Ideal) (G2 V c) := by
  have h9 : t.val = 9 := by
    have := (flush2_6 t).mp hf
    have hN : t.val < 10 := lt_of_lt_of_eq t.isLt N_2
    omega
  have h0 : ¬t.val = 0 := by omega
  show (cfg2.win 6).cut (grid2.coords t) ((dat2 V c).after 6 t) = _
  rw [after2_6, outsAt2_C V c t h0 h9]
  dsimp only
  rw [out2_C_eq]
  funext y
  obtain ⟨g, z, rfl⟩ : ∃ (g : Fin 128) (z : Fin 1), y = ix2 g z := ⟨y 0, y 1, eq_ix2 y⟩
  obtain rfl : z = 0 := Subsingleton.elim _ _
  show k2_pay3 (F := Ideal) _ _ _ _ _ (ix2 g (0 : Fin 1)) = G2 V c (((cfg2.win 6).blk t).view.emb (ix2 g (0 : Fin 1)))
  refine (Pay.k2_pay3_apply _ _ _ _ _ g).trans ?_
  have hemb : (((cfg2.win 6).blk t).view.emb (ix2 g (0 : Fin 1)) 0).val = g.val := by
    obtain ⟨-, -, -, -, -, -, -, -, h6⟩ := idx_facts2 t
    show win2_6.index t (0 : Fin 2) * 128 + 1 * g.val = g.val
    rw [h6.1]; omega
  unfold G2 headF
  rw [show (⟨(((cfg2.win 6).blk t).view.emb (ix2 g (0 : Fin 1)) 0).val, (((cfg2.win 6).blk t).view.emb (ix2 g (0 : Fin 1)) 0).isLt⟩ : Fin 128) = g from Fin.ext hemb]
  have hacc : ∀ j : Fin 256, k2_pay2 (F := Ideal) (iblk2 V c 1 t) (iblk2 V c 0 t) (outsAt2 V c (t.val - 1) (Nat.lt_of_le_of_lt (Nat.sub_le _ _) t.isLt)).2 (ix2 g j)
      = tileAcc (ohV V c) (hV V c) 9 (by omega) g j := by
    intro j
    have := acc_apply V c t.val t.isLt g j
    rw [outsAt2_C V c t h0 h9] at this
    dsimp only at this
    rw [sout2_C_eq] at this
    rw [this]
    congr 1
  simp only [hacc, blk2_apply, blk3_apply, blk4_apply, blk5_apply]

theorem mem_blk6 (t : Fin cfg2.N) (i : S128x1.Idx) :
    i ∈ ((cfg2.win 6).blk t).view.set ↔ ∀ a : Fin 2, win2_6.index t a * S128x1.size a ≤ (i a).val ∧ (i a).val < win2_6.index t a * S128x1.size a + S128x1.size a := by
  show i ∈ ((View.whole main_v33).slice (win2_6.rect t)).set ↔ _
  rw [View.set_slice_whole, Rect.mem_set_unit]
  exact Iff.rfl

/-- THE RESULT ARRAY after the launch, read at g. -/
theorem final2 (c : Dev nD) (g : Fin 128) :
    (dat2 V c).arrAt 6 cfg2.N (ix2 g (0 : Fin 1))
      = headF (tileAcc (ohV V c) (hV V c) 9 (by omega)) (fun j k => V c main_arg9 (ix2 j k)) (fun k => V c main_v31 (ix2 (0 : Fin 1) k))
          (fun k => V c main_arg11 (ix2 k (0 : Fin 1))) (V c main_v32 (ix2 (0 : Fin 1) (0 : Fin 1))) g := by
  have hcover : ∀ i : S128x1.Idx, ∃ t : Fin cfg2.N, (cfg2.win 6).flush t = true ∧ i ∈ ((cfg2.win 6).blk t).view.set := by
    intro i
    refine ⟨tLast, (flush2_6 tLast).mpr (by show 9 % 10 = 9; rfl), ?_⟩
    rw [mem_blk6]
    obtain ⟨-, -, -, -, -, -, -, -, h6⟩ := idx_facts2 tLast
    intro a
    match a with
    | ⟨0, _⟩ => show win2_6.index tLast (0 : Fin 2) * 128 ≤ (i 0).val ∧ (i 0).val < win2_6.index tLast (0 : Fin 2) * 128 + 128; rw [h6.1]; have hi : (i 0).val < 128 := (i 0).isLt; omega
    | ⟨1, _⟩ => show win2_6.index tLast (1 : Fin 2) * 1 ≤ (i 1).val ∧ (i 1).val < win2_6.index tLast (1 : Fin 2) * 1 + 1; rw [h6.2]; have hi : (i 1).val < 1 := (i 1).isLt; omega
  rw [(dat2 V c).arrAt_eq_of_cover 6 (G2 V c) (fun t hf => flushed2_eq V c t hf) hcover]
  rfl

end Cert.KernelIdeal.Hand

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.LibAgg.lean ====
/-
  A weighted row aggregation on the host, read at an index.

  Looking rows of a table `feat : [N, K]` up at start words, scaling looked-up row `e` by the weight `w e`, and
  scatter-adding the scaled rows from a zero table at destination words gives, at `(n, k)`, zero plus the sum over
  the edges `e` whose destination word (read signed) is `n` of `feat (row e) k · w e`, where `row e` is the start word
  read signed and clamped into [0, N − 1].
-/
import proofs.«413475_j11897059410286_1_alg».proof.Proof.LibIndexed
import Idealize.ShloMosaic.Lib.Pipeline.Value
import Idealize.ShloMosaic.Lib.IdealHost

noncomputable section

namespace Cert.Gcn2.Lib

open Idealize.ShloMosaic Idealize.ShloMosaic.ValueIdx

/-- A vector broadcast to one column, read at `(e, 0)`, is the vector at `e` (a size-one vector included: its one
    coordinate is 0). -/
theorem broadcastInDim_col_apply {α : Type} {E : Nat}
    (hb1 : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ ![0] hb1 x (ix2 e (0 : Fin 1)) = x (ix1 e) := by
  refine broadcastInDim_apply _ _ _ _ _ (fun a => ?_)
  match a with
  | ⟨0, _⟩ =>
    show e.val = if E = 1 then 0 else e.val
    have := e.isLt
    split <;> omega

/-- One column broadcast along the rows, read at `(e, k)`, is the column at `(e, 0)`. -/
theorem broadcastInDim_row_apply {α : Type} {E K : Nat}
    (hb2 : (⟨2, ![E, 1]⟩ : Shape).BroadcastsInDim ⟨2, ![E, K]⟩ (![0, 1] : Fin 2 → Fin 2))
    (x : (⟨2, ![E, 1]⟩ : Shape).Idx → α) (e : Fin E) (k : Fin K) :
    broadcastInDim ⟨2, ![E, K]⟩ ![0, 1] hb2 x (ix2 e k) = x (ix2 e (0 : Fin 1)) := by
  refine broadcastInDim_apply _ _ _ _ _ (fun a => ?_)
  match a with
  | ⟨0, _⟩ =>
    show e.val = if E = 1 then 0 else e.val
    have := e.isLt
    split <;> omega
  | ⟨1, _⟩ =>
    show 0 = if 1 = 1 then 0 else k.val
    rfl

theorem agg_apply {N K E : Nat} (hN : 0 < N)
    (gd : GatherDims ⟨2, ![N, K]⟩ ⟨2, ![E, 1]⟩ ⟨2, ![E, K]⟩)
    (gwf : GatherDims.WF ⟨2, ![N, K]⟩ ⟨2, ![E, 1]⟩ ⟨2, ![E, K]⟩ [1] [0] [] [0] [] 1 ![1, K])
    (hgd : gd = { offsetDims := [1], collapsedSliceDims := [0], operandBatchingDims := [], startIndicesBatchingDims := [], startIndexMap := [0], indexVectorDim := 1, sliceSizes := ![1, K], wf := gwf })
    (sd : ScatterDims ⟨2, ![N, K]⟩ ⟨2, ![E, 1]⟩ ⟨2, ![E, K]⟩)
    (swf : ScatterDims.WF ⟨2, ![N, K]⟩ ⟨2, ![E, 1]⟩ ⟨2, ![E, K]⟩ [1] [0] [0] 1)
    (hsd : sd = { updateWindowDims := [1], insertedWindowDims := [0], scatterDimsToOperandDims := [0], indexVectorDim := 1, wf := swf })
    (hb0 : (⟨0, ![]⟩ : Shape).BroadcastsInDim ⟨2, ![N, K]⟩ (![] : Fin 0 → Fin 2))
    (hb1 : (⟨1, ![E]⟩ : Shape).BroadcastsInDim ⟨2, ![E, 1]⟩ (![0] : Fin 1 → Fin 2))
    (hb2 : (⟨2, ![E, 1]⟩ : Shape).BroadcastsInDim ⟨2, ![E, K]⟩ (![0, 1] : Fin 2 → Fin 2))
    (feat : FVec Ideal ⟨2, ![N, K]⟩ .f32) (nidx a2 : IVec ⟨1, ![E]⟩ 32) (w : FVec Ideal ⟨1, ![E]⟩ .f32) (n : Fin N) (k : Fin K) :
    Host.scatterAdd (F := Ideal) sd
        (broadcastInDim ⟨2, ![N, K]⟩ ![] hb0 (constant (F := Ideal) ⟨0, ![]⟩ .f32 0x00000000#32))
        (broadcastInDim ⟨2, ![E, 1]⟩ ![0] hb1 a2)
        (mulf (Host.gather gd feat (broadcastInDim ⟨2, ![E, 1]⟩ ![0] hb1 nidx))
          (broadcastInDim ⟨2, ![E, K]⟩ ![0, 1] hb2 (broadcastInDim ⟨2, ![E, 1]⟩ ![0] hb1 w))) (ix2 n k)
      = 0 + ∑ e ∈ Finset.univ.filter (fun e : Fin E => (a2 (ix1 e)).toInt = (n.val : ℤ)),
          feat (ix2 ⟨min (nidx (ix1 e)).toInt.toNat (N - 1), by omega⟩ k) * w (ix1 e) := by
  rw [Cert.Rgcn.Lib.scatterAdd_rows_apply sd swf hsd]
  congr 1
  · -- the operand is a broadcast scalar zero
    rw [broadcastInDim_scalar_apply, constant_apply, Ideal.ofBits_zero_f32]
  · -- the destination word of edge `e` is `a2 e`; the update at `(e, k)` is the looked-up row times the weight
    simp only [broadcastInDim_col_apply hb1 a2]
    refine Finset.sum_congr rfl (fun e _ => ?_)
    rw [mulf_apply, Cert.Rgcn.Lib.gather_rows_apply hN gd gwf hgd, broadcastInDim_row_apply hb2,
      broadcastInDim_col_apply hb1 w]
    simp only [broadcastInDim_col_apply hb1 nidx]

end Cert.Gcn2.Lib

end
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.KI.HostVal.lean ====
/-
  What the host stretches of the program leave in the buffers its three launches read, at the ideal instance.

  Before launch 0 the host looks rows of the feature table up at the source words (wrapped once where negative), scales
  looked-up row e by weight e, and scatter-adds the scaled rows from zero at the destination words; it also reshapes the
  first bias to a row. Before launch 1 it does the same with launch 0's output as the table and reshapes the second
  bias. Before launch 2 it reshapes the graph-id words to a column, the dense bias to a row and the output bias to a
  1×1 array. Every other buffer a launch reads is an argument no host operation and no launch writes.
-/
import proofs.«413475_j11897059410286_1_alg».proof.Proof.KI.Run
import proofs.«413475_j11897059410286_1_alg».proof.Proof.LibAgg
import proofs.«413475_j11897059410286_1_alg».proof.Proof.LibReshape
import proofs.«413475_j11897059410286_1_alg».proof.Proof.SpecIdx
import Idealize.ShloMosaic.Lib.StableHlo.Run
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Gcn2

variable (m : (ℓ : Loc nD τ sig) → Buf (Elt Ideal) ℓ) (ρ : Dev nD → PrngReg)

/-- The feature table, the edge weights and launch 0's output (the first layer's activations) as arrays of extended
    reals. -/
abbrev featA (c : Dev nD) : S50000x128.Idx → EReal := m ((c : Thread nD τ).loc main_arg0)
abbrev wgtA (c : Dev nD) : S800000.Idx → EReal := m ((c : Thread nD τ).loc main_arg3)
abbrev hid1A (c : Dev nD) : S50000x256.Idx → EReal := W2 m ρ c (Proc.devRef .tc main_v14)

/-! ## Before launch 0 -/

/-- No operation of the first stretch writes the first weight matrix. -/
theorem V1_arg5 (c : Dev nD) : V1 m ρ c main_arg5 = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The first bias reshaped to a row, read at `(0, j)`. -/
theorem V1_v13 (c : Dev nD) (j : Fin 256) :
    V1 m ρ c main_v13 (ix2 (0 : Fin 1) j) = (m ((c : Thread nD τ).loc main_arg6)) (ix1 j) := by
  have e : (V1 m ρ c main_v13 : S1x256.Idx → EReal)
      = shapeCast S1x256 ((m ((c : Thread nD τ).loc main_arg6)) : S256.Idx → EReal) shapeCasts_S256_S1x256 := by
    dsimp only [V1, W1]
    after_results
    rfl
  rw [e]
  exact Cert.Rgcn.Lib.row_of_vec_apply _ _ j

/-- The aggregated features: at `(n, k)`, zero plus the sum over the edges landing on node `n` of the source row's
    entry `k` times the edge's weight. -/
theorem V1_v12 (c : Dev nD) (n : Fin 50000) (k : Fin 128) :
    V1 m ρ c main_v12 (ix2 n k)
      = 0 + ∑ e ∈ landsOf (m ((c : Thread nD τ).loc main_arg2)) n,
          featA m c (ix2 (srcOf (wrapIdx bcast_S_S800000 (m ((c : Thread nD τ).loc main_arg1))) e) k) * wgtA m c (ix1 e) := by
  have e : (V1 m ρ c main_v12 : S50000x128.Idx → EReal)
      = Host.scatterAdd (F := Ideal) scatter_S50000x128_S800000x1_S800000x128_1_0_0_1
          (broadcastInDim S50000x128 ![] bcast_S_S50000x128 (constant (F := Ideal) S_ .f32 0x00000000#32))
          (broadcastInDim S800000x1 ![0] bcast_S800000_S800000x1_0 ((m ((c : Thread nD τ).loc main_arg2)) : IVec S800000 32))
          (mulf (Host.gather gather_S50000x128_S800000x1_S800000x128_1_0_n_n_0_1_1128 (featA m c)
              (broadcastInDim S800000x1 ![0] bcast_S800000_S800000x1_0 (wrapIdx bcast_S_S800000 (m ((c : Thread nD τ).loc main_arg1)))))
            (broadcastInDim S800000x128 ![0, 1] bcast_S800000x1_S800000x128_0_1
              (broadcastInDim S800000x1 ![0] bcast_S800000_S800000x1_0 (wgtA m c)))) := by
    dsimp only [V1, W1]
    after_results_simp
    rfl
  rw [e]
  exact Cert.Gcn2.Lib.agg_apply (N := 50000) (K := 128) (E := 800000) (by norm_num)
    gather_S50000x128_S800000x1_S800000x128_1_0_n_n_0_1_1128 Facts₀.gather_S50000x128_S800000x1_S800000x128_1_0_n_n_0_1_1128_wf rfl
    scatter_S50000x128_S800000x1_S800000x128_1_0_0_1 Facts₀.scatter_S50000x128_S800000x1_S800000x128_1_0_0_1_wf rfl
    bcast_S_S50000x128 bcast_S800000_S800000x1_0 bcast_S800000x1_S800000x128_0_1
    (featA m c) (wrapIdx bcast_S_S800000 (m ((c : Thread nD τ).loc main_arg1))) (m ((c : Thread nD τ).loc main_arg2)) (wgtA m c) n k

/-! ## Before launch 1 -/

/-- An argument that is no array of launch 0 leaves it as launched. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W2_main_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W2_main_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

/-- No operation of the second stretch writes the second weight matrix. -/
theorem V3_arg7 (c : Dev nD) : V3 m ρ c main_arg7 = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W2_main_arg7 m ρ c

/-- The second bias reshaped to a row, read at `(0, j)`. -/
theorem V3_v28 (c : Dev nD) (j : Fin 256) :
    V3 m ρ c main_v28 (ix2 (0 : Fin 1) j) = (m ((c : Thread nD τ).loc main_arg8)) (ix1 j) := by
  have e : (V3 m ρ c main_v28 : S1x256.Idx → EReal)
      = shapeCast S1x256 (W2 m ρ c (Proc.devRef .tc main_arg8) : S256.Idx → EReal) shapeCasts_S256_S1x256 := by
    dsimp only [V3, W3]
    after_results
    rfl
  rw [e, W2_main_arg8]
  exact Cert.Rgcn.Lib.row_of_vec_apply _ _ j

/-- The aggregated first-layer activations: at `(n, j)`, zero plus the sum over the edges landing on node `n` of the
    source row's entry `j` of launch 0's output times the edge's weight. -/
theorem V3_v27 (c : Dev nD) (n : Fin 50000) (j : Fin 256) :
    V3 m ρ c main_v27 (ix2 n j)
      = 0 + ∑ e ∈ landsOf (m ((c : Thread nD τ).loc main_arg2)) n,
          hid1A m ρ c (ix2 (srcOf (wrapIdx bcast_S_S800000 (m ((c : Thread nD τ).loc main_arg1))) e) j) * wgtA m c (ix1 e) := by
  have e : (V3 m ρ c main_v27 : S50000x256.Idx → EReal)
      = Host.scatterAdd (F := Ideal) scatter_S50000x256_S800000x1_S800000x256_1_0_0_1
          (broadcastInDim S50000x256 ![] bcast_S_S50000x256 (constant (F := Ideal) S_ .f32 0x00000000#32))
          (broadcastInDim S800000x1 ![0] bcast_S800000_S800000x1_0 (W2 m ρ c (Proc.devRef .tc main_arg2) : IVec S800000 32))
          (mulf (Host.gather gather_S50000x256_S800000x1_S800000x256_1_0_n_n_0_1_1256 (hid1A m ρ c)
              (broadcastInDim S800000x1 ![0] bcast_S800000_S800000x1_0 (wrapIdx bcast_S_S800000 (W2 m ρ c (Proc.devRef .tc main_arg1)))))
            (broadcastInDim S800000x256 ![0, 1] bcast_S800000x1_S800000x256_0_1
              (broadcastInDim S800000x1 ![0] bcast_S800000_S800000x1_0 (W2 m ρ c (Proc.devRef .tc main_arg3) : FVec Ideal S800000 .f32)))) := by
    dsimp only [V3, W3]
    after_results_simp
    rfl
  rw [e, W2_main_arg1, W2_main_arg2, W2_main_arg3]
  exact Cert.Gcn2.Lib.agg_apply (N := 50000) (K := 256) (E := 800000) (by norm_num)
    gather_S50000x256_S800000x1_S800000x256_1_0_n_n_0_1_1256 Facts₀.gather_S50000x256_S800000x1_S800000x256_1_0_n_n_0_1_1256_wf rfl
    scatter_S50000x256_S800000x1_S800000x256_1_0_0_1 Facts₀.scatter_S50000x256_S800000x1_S800000x256_1_0_0_1_wf rfl
    bcast_S_S50000x256 bcast_S800000_S800000x1_0 bcast_S800000x1_S800000x256_0_1
    (hid1A m ρ c) (wrapIdx bcast_S_S800000 (m ((c : Thread nD τ).loc main_arg1))) (m ((c : Thread nD τ).loc main_arg2)) (wgtA m c) n j

/-! ## Before launch 2 -/

/-- An argument that is no array of launch 0 or of launch 1 leaves both as launched. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := W2_main_arg4 m ρ c

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W2_main_arg9 m ρ c

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := W2_main_arg10 m ρ c

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W2_main_arg11 m ρ c

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := W2_main_arg12 m ρ c

/-- No operation of the third stretch writes launch 1's output. -/
theorem V5_v29 (c : Dev nD) : V5 m ρ c main_v29 = W4 m ρ c (Proc.devRef .tc main_v29) :=
  StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- No operation of the third stretch writes the dense weight matrix. -/
theorem V5_arg9 (c : Dev nD) : V5 m ρ c main_arg9 = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := W4_main_arg9 m ρ c

/-- No operation of the third stretch writes the output weight column. -/
theorem V5_arg11 (c : Dev nD) : V5 m ρ c main_arg11 = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := W4_main_arg11 m ρ c

/-- The graph-id words reshaped to a column, read at `(n, 0)`. -/
theorem V5_v30 (c : Dev nD) (n : Fin 50000) :
    V5 m ρ c main_v30 (ix2 n (0 : Fin 1)) = (m ((c : Thread nD τ).loc main_arg4)) (ix1 n) := by
  have e : (V5 m ρ c main_v30 : S50000x1.Idx → BitVec 32)
      = shapeCast S50000x1 (W4 m ρ c (Proc.devRef .tc main_arg4) : S50000.Idx → BitVec 32) shapeCasts_S50000_S50000x1 := by
    dsimp only [V5, W5]
    after_results
    rfl
  rw [e, W4_main_arg4]
  exact Cert.Rgcn.Lib.col_of_vec_apply _ _ n

/-- The dense bias reshaped to a row, read at `(0, k)`. -/
theorem V5_v31 (c : Dev nD) (k : Fin 256) :
    V5 m ρ c main_v31 (ix2 (0 : Fin 1) k) = (m ((c : Thread nD τ).loc main_arg10)) (ix1 k) := by
  have e : (V5 m ρ c main_v31 : S1x256.Idx → EReal)
      = shapeCast S1x256 (W4 m ρ c (Proc.devRef .tc main_arg10) : S256.Idx → EReal) shapeCasts_S256_S1x256 := by
    dsimp only [V5, W5]
    after_results
    rfl
  rw [e, W4_main_arg10]
  exact Cert.Rgcn.Lib.row_of_vec_apply _ _ k

/-- The output bias reshaped to a 1×1 array, read at `(0, 0)`. -/
theorem V5_v32 (c : Dev nD) :
    V5 m ρ c main_v32 (ix2 (0 : Fin 1) (0 : Fin 1)) = (m ((c : Thread nD τ).loc main_arg12)) (ix1 (0 : Fin 1)) := by
  have e : (V5 m ρ c main_v32 : S1x1.Idx → EReal)
      = shapeCast S1x1 (W4 m ρ c (Proc.devRef .tc main_arg12) : S1.Idx → EReal) shapeCasts_S1_S1x1 := by
    dsimp only [V5, W5]
    after_results
    rfl
  rw [e, W4_main_arg12]
  exact Cert.Rgcn.Lib.row_of_vec_apply _ _ (0 : Fin 1)

end Cert.KernelIdeal.Hand

end
-- ==== Proof.KI.KerValue.lean ====
/-
  The kernel program's result array, index by index, as a function of its arguments: the three launches' arrays
  read through the host stretches between them.
-/
import proofs.«413475_j11897059410286_1_alg».proof.Proof.KI.Run
import proofs.«413475_j11897059410286_1_alg».proof.Proof.KI.Fin0
import proofs.«413475_j11897059410286_1_alg».proof.Proof.KI.Fin1
import proofs.«413475_j11897059410286_1_alg».proof.Proof.KI.Fin2
import proofs.«413475_j11897059410286_1_alg».proof.Proof.KI.HostVal
import proofs.«413475_j11897059410286_1_alg».proof.Proof.SpecIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Gcn2

variable (m : (ℓ : Loc nD τ sig) → Buf (Elt Ideal) ℓ) (ρ : Dev nD → PrngReg)

/-- The first layer's array: the first matrix-product launch on the aggregated inputs. -/
theorem h1_apply (c : Dev nD) (n : Fin 50000) (j : Fin 256) :
    c2 (W2 m ρ c (Proc.devRef .tc main_v14)) n j = kerH1 (wrapIdx bcast_S_S800000 (m ((c : Thread nD τ).loc main_arg1))) (m ((c : Thread nD τ).loc main_arg2)) (m ((c : Thread nD τ).loc main_arg0)) (m ((c : Thread nD τ).loc main_arg3)) (m ((c : Thread nD τ).loc main_arg5)) (m ((c : Thread nD τ).loc main_arg6)) n j := by
  have hf := final0 (V1 m ρ) c n j
  rw [show W2 m ρ c (Proc.devRef .tc main_v14) = (dat0 (V1 m ρ) c).arrAt 3 cfg0.N from W2_arr m ρ c 3]
  refine hf.trans ?_
  unfold kerH1 layerK
  refine congrArg (fun s => max s 0) ?_
  refine congrArg₂ (· + ·) (Finset.sum_congr rfl fun k _ => ?_) (V1_v13 m ρ c j)
  exact congrArg₂ (· * ·) (V1_v12 m ρ c n k) (congrFun (V1_arg5 m ρ c) (ix2 k j))

/-- The second layer's array: the second matrix-product launch on the aggregated first layer. -/
theorem h2_apply (c : Dev nD) (n : Fin 50000) (j : Fin 256) :
    c2 (W4 m ρ c (Proc.devRef .tc main_v29)) n j = kerH2 (wrapIdx bcast_S_S800000 (m ((c : Thread nD τ).loc main_arg1))) (m ((c : Thread nD τ).loc main_arg2)) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) n j := by
  have hf := final1 (V3 m ρ) c n j
  rw [show W4 m ρ c (Proc.devRef .tc main_v29) = (dat1 (V3 m ρ) c).arrAt 3 cfg1.N from W4_arr m ρ c 3]
  refine hf.trans ?_
  unfold kerH2 layerK
  refine congrArg (fun s => max s 0) ?_
  refine congrArg₂ (· + ·) (Finset.sum_congr rfl fun k _ => ?_) (V3_v28 m ρ c j)
  refine congrArg₂ (· * ·) ((V3_v27 m ρ c n k).trans ?_) (congrFun (V3_arg7 m ρ c) (ix2 k j))
  refine congrArg (fun s => 0 + s) (Finset.sum_congr rfl fun e _ => ?_)
  exact congrArg (· * _) (h1_apply m ρ c _ k)

/-- THE RESULT: the pooling launch's one write-back, through the dense head. -/
theorem ker_value (c : Dev nD) (g : Fin 128) :
    (dat2 (V5 m ρ) c).arrAt 6 cfg2.N (ix2 g (0 : Fin 1))
      = kerOut (wrapIdx bcast_S_S800000 (m ((c : Thread nD τ).loc main_arg1))) (m ((c : Thread nD τ).loc main_arg2)) (m ((c : Thread nD τ).loc main_arg4)) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) g := by
  refine (final2 (V5 m ρ) c g).trans ?_
  have e1 : ohV (V5 m ρ) c = oneHot (m ((c : Thread nD τ).loc main_arg4)) := by
    funext n g'; unfold ohV oneHot segOf; rw [V5_v30]
  have e2 : hV (V5 m ρ) c = kerH2 (wrapIdx bcast_S_S800000 (m ((c : Thread nD τ).loc main_arg1))) (m ((c : Thread nD τ).loc main_arg2)) (m ((c : Thread nD τ).loc main_arg0)) (m ((c : Thread nD τ).loc main_arg3)) (m ((c : Thread nD τ).loc main_arg5)) (m ((c : Thread nD τ).loc main_arg6)) (m ((c : Thread nD τ).loc main_arg7)) (m ((c : Thread nD τ).loc main_arg8)) := by
    funext n j
    show V5 m ρ c main_v29 (ix2 n j) = _
    rw [V5_v29]
    exact h2_apply m ρ c n j
  have e3 : (fun j k => V5 m ρ c main_arg9 (ix2 j k)) = c2 (m ((c : Thread nD τ).loc main_arg9)) := by rw [V5_arg9]
  have e4 : (fun k => V5 m ρ c main_v31 (ix2 (0 : Fin 1) k)) = c1 (m ((c : Thread nD τ).loc main_arg10)) := by funext k; exact V5_v31 m ρ c k
  have e5 : (fun k => V5 m ρ c main_arg11 (ix2 k (0 : Fin 1))) = (fun k => (m ((c : Thread nD τ).loc main_arg11)) (ix2 k (0 : Fin 1))) := by rw [V5_arg11]
  have e6 : V5 m ρ c main_v32 (ix2 (0 : Fin 1) (0 : Fin 1)) = (m ((c : Thread nD τ).loc main_arg12)) (ix1 (0 : Fin 1)) := V5_v32 m ρ c
  unfold kerOut
  rw [e1, e2, e3, e4, e5, e6]

end Cert.KernelIdeal.Hand

end
-- ==== Proof.RefValue.lean ====
/-
  The reference program's result, read at an index at the ideal values.

  Each graph-convolution layer of the reference multiplies the node rows by the layer's weight matrix, looks the
  product's rows up along the edges, scales each looked-up row by its edge's weight, adds the scaled rows into the node
  each edge lands on, adds the bias and clips at zero. The pooled head adds the node rows of each graph and applies two
  dense layers. Read entry by entry these are the plain-index forms `refH1`, `refH2`, `poolSum` and `headF`.
-/
import proofs.«413475_j11897059410286_1_alg».proof.Proof.Gen.ReferenceIdeal.Run
import proofs.«413475_j11897059410286_1_alg».proof.Proof.Gen.ReferenceIdeal.Read
import proofs.«413475_j11897059410286_1_alg».proof.Proof.SpecIdx
import proofs.«413475_j11897059410286_1_alg».proof.Proof.LibAgg
import proofs.«413475_j11897059410286_1_alg».proof.Proof.LibIndexed
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.ReferenceIdeal.Read

/-- The bias row broadcast over the nodes, read at `(n, j)`, is the bias at `j`. -/
theorem bias_apply {R : Nat} (hb : S1x256.BroadcastsInDim (⟨2, ![R, 256]⟩ : Shape) (![0, 1] : Fin 2 → Fin 2))
    (b : FVec Ideal S256 .f32) (n : Fin R) (j : Fin 256) :
    broadcastInDim (⟨2, ![R, 256]⟩ : Shape) ![0, 1] hb (broadcastInDim S1x256 ![1] bcast_S256_S1x256_1 b) (ix2 n j) = b (ix1 j) := by
  refine (broadcastInDim_apply _ hb _ (ix2 n j) (ix2 (0 : Fin 1) j) (fun a => ?_)).trans ?_
  · match a with
    | ⟨0, _⟩ => show 0 = if (1 : Nat) = 1 then 0 else n.val; rw [if_pos rfl]
    | ⟨1, _⟩ => show j.val = if (256 : Nat) = 1 then 0 else j.val; rw [if_neg (by decide)]
  · refine broadcastInDim_apply _ bcast_S256_S1x256_1 b (ix2 (0 : Fin 1) j) (ix1 j) (fun a => ?_)
    match a with
    | ⟨0, _⟩ => show j.val = if (256 : Nat) = 1 then 0 else j.val; rw [if_neg (by decide)]

/-- The zero table, read anywhere, is zero. -/
theorem zero_apply {T : Shape} (hb : S_.BroadcastsInDim T (![] : Fin 0 → Fin T.rank)) (i : T.Idx) :
    broadcastInDim T ![] hb (constant (F := Ideal) S_ .f32 0x00000000#32) i = 0 := by
  rw [broadcastInDim_scalar_apply, constant_apply, Ideal.ofBits_zero_f32]

/-- One layer after the product by its weight matrix, for any product table `feat`: entry `(n, j)` is the clipped sum
    of zero, the weighted looked-up entries of the edges landing on `n`, and the bias at `j`. -/
theorem layer_core (feat : FVec Ideal S50000x256 .f32) (x1 x2 : IVec S800000 32) (x3 : FVec Ideal S800000 .f32)
    (b : FVec Ideal S256 .f32) (n : Fin 50000) (j : Fin 256) :
    maximumf
      (addf
        (Host.scatterAdd (F := Ideal) scatter_S50000x256_S800000x1_S800000x256_1_0_0_1
          (broadcastInDim S50000x256 ![] bcast_S_S50000x256 (constant (F := Ideal) S_ .f32 0x00000000#32))
          (broadcastInDim S800000x1 ![0] bcast_S800000_S800000x1_0 x2)
          (mulf (Host.gather gather_S50000x256_S800000x1_S800000x256_1_0_n_n_0_1_1256 feat
              (broadcastInDim S800000x1 ![0] bcast_S800000_S800000x1_0 (Cert.Gcn2.wrapIdx bcast_S_S800000 x1)))
            (broadcastInDim S800000x256 ![0, 1] bcast_S800000x1_S800000x256_0_1
              (broadcastInDim S800000x1 ![0] bcast_S800000_S800000x1_0 x3))))
        (broadcastInDim S50000x256 ![0, 1] bcast_S1x256_S50000x256_0_1 (broadcastInDim S1x256 ![1] bcast_S256_S1x256_1 b)))
      (broadcastInDim S50000x256 ![] bcast_S_S50000x256 (constant (F := Ideal) S_ .f32 0x00000000#32)) (ix2 n j)
    = max ((0 + ∑ e ∈ Cert.Gcn2.landsOf x2 n,
              feat (ix2 (Cert.Gcn2.srcOf (Cert.Gcn2.wrapIdx bcast_S_S800000 x1) e) j) * x3 (ix1 e)) + b (ix1 j)) 0 := by
  rw [maximumf_apply, addf_apply, zero_apply, bias_apply]
  rw [Cert.Gcn2.Lib.agg_apply (N := 50000) (K := 256) (E := 800000) (by decide)
    gather_S50000x256_S800000x1_S800000x256_1_0_n_n_0_1_1256 gather_S50000x256_S800000x1_S800000x256_1_0_n_n_0_1_1256_wf rfl
    scatter_S50000x256_S800000x1_S800000x256_1_0_0_1 scatter_S50000x256_S800000x1_S800000x256_1_0_0_1_wf rfl
    bcast_S_S50000x256 bcast_S800000_S800000x1_0 bcast_S800000x1_S800000x256_0_1 feat (Cert.Gcn2.wrapIdx bcast_S_S800000 x1) x2 x3 n j]
  rfl

/-- The operand indices of the first product at output `(n, j)` and contraction coordinate `k` are `(n, k)` and `(k, j)`. -/
theorem lidx_v0 (n : Fin 50000) (j : Fin 256) (k : Fin 128) : lidx_main_v0 (ix2 n j) k = ix2 n k := by
  funext a; match a with | ⟨0, _⟩ => rfl | ⟨1, _⟩ => rfl
theorem ridx_v0 (n : Fin 50000) (j : Fin 256) (k : Fin 128) : ridx_main_v0 (ix2 n j) k = ix2 k j := by
  funext a; match a with | ⟨0, _⟩ => rfl | ⟨1, _⟩ => rfl
theorem lidx_v18 (n : Fin 50000) (j : Fin 256) (k : Fin 256) : lidx_main_v18 (ix2 n j) k = ix2 n k := by
  funext a; match a with | ⟨0, _⟩ => rfl | ⟨1, _⟩ => rfl
theorem ridx_v18 (n : Fin 50000) (j : Fin 256) (k : Fin 256) : ridx_main_v18 (ix2 n j) k = ix2 k j := by
  funext a; match a with | ⟨0, _⟩ => rfl | ⟨1, _⟩ => rfl

/-- The node rows times the first weight matrix, entry `(n, j)`. -/
theorem dot0_apply (x0 : FVec Ideal S50000x128 .f32) (x5 : FVec Ideal S128x256 .f32) (n : Fin 50000) (j : Fin 256) :
    val_main_v0 (F := Ideal) x0 x5 (ix2 n j) = ∑ k : Fin 128, x0 (ix2 n k) * x5 (ix2 k j) := by
  rw [val_main_v0_apply]
  refine Finset.sum_congr rfl fun k _ => ?_
  rw [lidx_v0, ridx_v0]

section
variable (x0 : FVec Ideal S50000x128 .f32) (x1 x2 : IVec S800000 32) (x3 : FVec Ideal S800000 .f32) (x4 : IVec S50000 32)
  (x5 : FVec Ideal S128x256 .f32) (x6 : FVec Ideal S256 .f32) (x7 : FVec Ideal S256x256 .f32) (x8 : FVec Ideal S256 .f32)
  (x9 : FVec Ideal S256x256 .f32) (x10 : FVec Ideal S256 .f32) (x11 : FVec Ideal S256x1 .f32) (x12 : FVec Ideal S1 .f32)

/-- The first layer's result, entry `(n, j)`. -/
theorem h1_apply (n : Fin 50000) (j : Fin 256) :
    val_main_v17 (F := Ideal) x0 x1 x2 x3 x5 x6 (ix2 n j)
      = Cert.Gcn2.refH1 (Cert.Gcn2.wrapIdx bcast_S_S800000 x1) x2 x0 x3 x5 x6 n j := by
  refine (layer_core (val_main_v0 (F := Ideal) x0 x5) x1 x2 x3 x6 n j).trans ?_
  unfold Cert.Gcn2.refH1 Cert.Gcn2.layerR
  simp only [dot0_apply]

/-- The first layer's rows times the second weight matrix, entry `(n, j)`. -/
theorem dot18_apply (n : Fin 50000) (j : Fin 256) :
    val_main_v18 (F := Ideal) x0 x1 x2 x3 x5 x6 x7 (ix2 n j)
      = ∑ k : Fin 256, Cert.Gcn2.refH1 (Cert.Gcn2.wrapIdx bcast_S_S800000 x1) x2 x0 x3 x5 x6 n k * x7 (ix2 k j) := by
  rw [val_main_v18_apply]
  refine Finset.sum_congr rfl fun k _ => ?_
  rw [lidx_v18, ridx_v18, h1_apply]

/-- The second layer's result, entry `(n, j)`. -/
theorem h2_apply (n : Fin 50000) (j : Fin 256) :
    val_main_v35 (F := Ideal) x0 x1 x2 x3 x5 x6 x7 x8 (ix2 n j)
      = Cert.Gcn2.refH2 (Cert.Gcn2.wrapIdx bcast_S_S800000 x1) x2 x0 x3 x5 x6 x7 x8 n j := by
  refine (layer_core (val_main_v18 (F := Ideal) x0 x1 x2 x3 x5 x6 x7) x1 x2 x3 x8 n j).trans ?_
  unfold Cert.Gcn2.refH2 Cert.Gcn2.layerR
  simp only [dot18_apply]

end

/-- The graph-id words spread to one column, read at `(n, 0)`, are the word of node `n`. -/
theorem seg_apply (x4 : IVec S50000 32) (n : Fin 50000) :
    val_main_v37 (F := Ideal) x4 (ix2 n (0 : Fin 1)) = x4 (ix1 n) :=
  Cert.Gcn2.Lib.broadcastInDim_col_apply bcast_S50000_S50000x1_0 x4 n

/-- The operand indices of the two dense products at their output index and contraction coordinate. -/
theorem lidx_v39 (g : Fin 128) (k : Fin 256) (j : Fin 256) : lidx_main_v39 (ix2 g k) j = ix2 g j := by
  funext a; match a with | ⟨0, _⟩ => rfl | ⟨1, _⟩ => rfl
theorem ridx_v39 (g : Fin 128) (k : Fin 256) (j : Fin 256) : ridx_main_v39 (ix2 g k) j = ix2 j k := by
  funext a; match a with | ⟨0, _⟩ => rfl | ⟨1, _⟩ => rfl
theorem lidx_v44 (g : Fin 128) (k : Fin 256) : lidx_main_v44 (ix2 g (0 : Fin 1)) k = ix2 g k := by
  funext a; match a with | ⟨0, _⟩ => rfl | ⟨1, _⟩ => rfl
theorem ridx_v44 (g : Fin 128) (k : Fin 256) : ridx_main_v44 (ix2 g (0 : Fin 1)) k = ix2 k (0 : Fin 1) := by
  funext a; match a with | ⟨0, _⟩ => rfl | ⟨1, _⟩ => rfl

section
variable (x0 : FVec Ideal S50000x128 .f32) (x1 x2 : IVec S800000 32) (x3 : FVec Ideal S800000 .f32) (x4 : IVec S50000 32)
  (x5 : FVec Ideal S128x256 .f32) (x6 : FVec Ideal S256 .f32) (x7 : FVec Ideal S256x256 .f32) (x8 : FVec Ideal S256 .f32)
  (x9 : FVec Ideal S256x256 .f32) (x10 : FVec Ideal S256 .f32) (x11 : FVec Ideal S256x1 .f32) (x12 : FVec Ideal S1 .f32)

/-- The pooled sums, entry `(g, j)`: zero plus the second layer's entries `(n, j)` over the nodes `n` of graph `g`. -/
theorem pool_apply (g : Fin 128) (j : Fin 256) :
    val_main_v38 (F := Ideal) x0 x1 x2 x3 x4 x5 x6 x7 x8 (ix2 g j)
      = Cert.Gcn2.poolSum (Cert.Gcn2.segOf x4)
          (Cert.Gcn2.refH2 (Cert.Gcn2.wrapIdx bcast_S_S800000 x1) x2 x0 x3 x5 x6 x7 x8) g j := by
  refine (Cert.Rgcn.Lib.scatterAdd_rows_apply (N := 128) (K := 256) (E := 50000)
    scatter_S128x256_S50000x1_S50000x256_1_0_0_1 scatter_S128x256_S50000x1_S50000x256_1_0_0_1_wf rfl
    (val_main_v36 (F := Ideal)) (val_main_v37 (F := Ideal) x4) (val_main_v35 (F := Ideal) x0 x1 x2 x3 x5 x6 x7 x8) g j).trans ?_
  have hz : val_main_v36 (F := Ideal) (ix2 g j) = 0 := zero_apply bcast_S_S128x256 (ix2 g j)
  rw [hz]
  unfold Cert.Gcn2.poolSum Cert.Gcn2.segOf
  simp only [seg_apply, h2_apply]

/-- The first dense layer on the pooled sums, entry `(g, k)`. -/
theorem d1_apply (g : Fin 128) (k : Fin 256) :
    val_main_v43 (F := Ideal) x0 x1 x2 x3 x4 x5 x6 x7 x8 x9 x10 (ix2 g k)
      = max ((∑ j : Fin 256, Cert.Gcn2.poolSum (Cert.Gcn2.segOf x4)
              (Cert.Gcn2.refH2 (Cert.Gcn2.wrapIdx bcast_S_S800000 x1) x2 x0 x3 x5 x6 x7 x8) g j * x9 (ix2 j k))
            + x10 (ix1 k)) 0 := by
  show max (val_main_v39 (F := Ideal) x0 x1 x2 x3 x4 x5 x6 x7 x8 x9 (ix2 g k) + val_main_v41 (F := Ideal) x10 (ix2 g k))
      (val_main_call2_v0 (F := Ideal) (ix2 g k)) = _
  have hz : val_main_call2_v0 (F := Ideal) (ix2 g k) = 0 := zero_apply bcast_S_S128x256 (ix2 g k)
  have hb : val_main_v41 (F := Ideal) x10 (ix2 g k) = x10 (ix1 k) := bias_apply bcast_S1x256_S128x256_0_1 x10 g k
  rw [hz, hb, val_main_v39_apply]
  refine congrArg (fun s => max (s + x10 (ix1 k)) 0) (Finset.sum_congr rfl fun j _ => ?_)
  rw [lidx_v39, ridx_v39, pool_apply]

/-- The second dense layer, entry `g`: the reference's result. -/
theorem out_apply (g : Fin 128) :
    val_main_v47 (F := Ideal) x0 x1 x2 x3 x4 x5 x6 x7 x8 x9 x10 x11 x12 (ix2 g (0 : Fin 1))
      = Cert.Gcn2.refOut (Cert.Gcn2.wrapIdx bcast_S_S800000 x1) x2 x4 x0 x3 x5 x6 x7 x8 x9 x10 x11 x12 g := by
  show val_main_v44 (F := Ideal) x0 x1 x2 x3 x4 x5 x6 x7 x8 x9 x10 x11 (ix2 g (0 : Fin 1))
      + val_main_v46 (F := Ideal) x12 (ix2 g (0 : Fin 1)) = _
  have hb : val_main_v46 (F := Ideal) x12 (ix2 g (0 : Fin 1)) = x12 (ix1 (0 : Fin 1)) := by
    rw [val_main_v46_apply, val_main_v45_apply]
    exact congrArg x12 (funext fun a => match a with | ⟨0, _⟩ => rfl)
  rw [hb, val_main_v44_apply]
  unfold Cert.Gcn2.refOut Cert.Gcn2.headF
  refine congrArg (fun s => s + x12 (ix1 (0 : Fin 1))) (Finset.sum_congr rfl fun k _ => ?_)
  rw [lidx_v44, ridx_v44, d1_apply]

/-- The reference's result as a function of its thirteen arguments: the composed term its run is stated with. -/
def resultTerm : FVec Ideal S128x1 .f32 := val_main_v47 (F := Ideal) x0 x1 x2 x3 x4 x5 x6 x7 x8 x9 x10 x11 x12

/-- The reference's result, entry `g`, is the plain-index form `refOut` of its arguments. -/
theorem result_apply (g : Fin 128) :
    resultTerm x0 x1 x2 x3 x4 x5 x6 x7 x8 x9 x10 x11 x12 (ix2 g (0 : Fin 1))
      = Cert.Gcn2.refOut (Cert.Gcn2.wrapIdx bcast_S_S800000 x1) x2 x4 x0 x3 x5 x6 x7 x8 x9 x10 x11 x12 g :=
  out_apply x0 x1 x2 x3 x4 x5 x6 x7 x8 x9 x10 x11 x12 g

end

section
open Idealize.ShloMosaic.TcCoe Idealize.SL.Sem Idealize.ShloMosaic.StableHlo

/-- Every weakly fair execution of the reference ends with its result buffer at `resultTerm` of the arguments' launch
    contents, and the arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = resultTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (val_main_v47_eq (F := Ideal) _ _ _ _ _ _ _ _ _ _ _ _ _), (h c).2⟩)
    (Cert.ReferenceIdeal.Value.run (F := Ideal) m ρ)

end

end Cert.ReferenceIdeal.RefValue

end
-- ==== Proof.Algebra.lean ====
/-
  The two orders of a graph-convolution layer agree on real numbers, a layer of real inputs is real, and the
  tile-by-tile pooled sum is the sum over each graph's nodes.
-/
import proofs.«413475_j11897059410286_1_alg».proof.Proof.Spec
import Mathlib.Algebra.BigOperators.Ring.Finset
import Mathlib.Algebra.BigOperators.Group.Finset.Sigma
import Mathlib.Algebra.BigOperators.Group.Finset.Piecewise
import Mathlib.Logic.Equiv.Defs
import Mathlib.Order.Lattice
import Mathlib.Tactic.Ring

noncomputable section

namespace Cert.Gcn2

open scoped BigOperators

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Layer

variable {E N K H : Type} [Fintype K]

/-- Summing along the edges and multiplying by the weights commute, on real numbers. -/
theorem layerK_eq_layerR (src : E → N) (lands : N → Finset E) (w : E → EReal) (feat : N → K → EReal) (W : K → H → EReal) (b : H → EReal)
    (hf : ∀ s k, IsReal (feat s k)) (hw : ∀ e, IsReal (w e)) (hW : ∀ k j, IsReal (W k j)) (n : N) (j : H) :
    layerK src lands w feat W b n j = layerR src lands w feat W b n j := by
  classical
  choose f hf using hf
  choose v hv using hw
  choose M hM using hW
  unfold layerK layerR
  refine congrArg (fun s => max (s + b j) 0) ?_
  -- the left side is the coercion of a real double sum
  have hL : (∑ k : K, (0 + ∑ e ∈ lands n, feat (src e) k * w e) * W k j)
      = ((∑ k : K, (∑ e ∈ lands n, f (src e) k * v e) * M k j : ℝ) : EReal) := by
    rw [coe_sum]
    refine Finset.sum_congr rfl fun k _ => ?_
    rw [zero_add, EReal.coe_mul, coe_sum, hM]
    congr 1
    refine Finset.sum_congr rfl fun e _ => ?_
    rw [hf, hv, EReal.coe_mul]
  -- so is the right side
  have hR : (0 + ∑ e ∈ lands n, (∑ k : K, feat (src e) k * W k j) * w e)
      = ((∑ e ∈ lands n, (∑ k : K, f (src e) k * M k j) * v e : ℝ) : EReal) := by
    rw [zero_add, coe_sum]
    refine Finset.sum_congr rfl fun e _ => ?_
    rw [EReal.coe_mul, coe_sum, hv]
    congr 1
    refine Finset.sum_congr rfl fun k _ => ?_
    rw [hf, hM, EReal.coe_mul]
  rw [hL, hR]
  congr 1
  -- in the reals: exchange the two finite sums
  simp only [Finset.sum_mul]
  rw [Finset.sum_comm]
  refine Finset.sum_congr rfl fun e _ => ?_
  refine Finset.sum_congr rfl fun k _ => ?_
  ring

/-- A layer of real inputs has real entries. -/
theorem layerK_isReal (src : E → N) (lands : N → Finset E) (w : E → EReal) (feat : N → K → EReal) (W : K → H → EReal) (b : H → EReal)
    (hf : ∀ s k, IsReal (feat s k)) (hw : ∀ e, IsReal (w e)) (hW : ∀ k j, IsReal (W k j)) (hb : ∀ j, IsReal (b j)) (n : N) (j : H) :
    IsReal (layerK src lands w feat W b n j) := by
  classical
  choose f hf using hf
  choose v hv using hw
  choose M hM using hW
  obtain ⟨c, hc⟩ := hb j
  refine ⟨max ((∑ k : K, (∑ e ∈ lands n, f (src e) k * v e) * M k j) + c) 0, ?_⟩
  unfold layerK
  rw [EReal.coe_strictMono.monotone.map_max, EReal.coe_add, EReal.coe_zero, hc, coe_sum]
  congr 2
  refine Finset.sum_congr rfl fun k _ => ?_
  rw [zero_add, EReal.coe_mul, coe_sum, hM]
  congr 1
  refine Finset.sum_congr rfl fun e _ => ?_
  rw [hf, hv, EReal.coe_mul]

end Layer

/-- The accumulator after tile `t` is the sum of the contributions of the tiles up to `t`. -/
theorem tileAcc_eq_sum (oh : Fin 50000 → Fin 128 → EReal) (h : Fin 50000 → Fin 256 → EReal) (g : Fin 128) (j : Fin 256) :
    ∀ (t : ℕ) (ht : t < 10), tileAcc oh h t ht g j
      = 0 + ∑ t' : Fin (t + 1), tileTerm oh h ⟨t'.val, lt_of_lt_of_le t'.isLt ht⟩ g j := by
  intro t
  induction t with
  | zero =>
    intro ht
    simp [tileAcc]
  | succ t ih =>
    intro ht
    show tileAcc oh h t (Nat.lt_of_succ_lt ht) g j + tileTerm oh h ⟨t + 1, ht⟩ g j = _
    rw [ih (Nat.lt_of_succ_lt ht), Fin.sum_univ_castSucc (n := t + 1), add_assoc]
    rfl

/-- A node is node `n % 5000` of tile `n / 5000`: the pairs (tile, node of the tile) are the nodes. -/
def tileEquiv : Fin 10 × Fin 5000 ≃ Fin 50000 where
  toFun p := tileNode p.1 p.2
  invFun n := (⟨n.val / 5000, by have := n.isLt; omega⟩, ⟨n.val % 5000, Nat.mod_lt _ (by omega)⟩)
  left_inv := by
    rintro ⟨t, r⟩
    have := t.isLt
    have := r.isLt
    refine Prod.ext (Fin.ext ?_) (Fin.ext ?_)
    · show (t.val * 5000 + 1 * r.val) / 5000 = t.val
      omega
    · show (t.val * 5000 + 1 * r.val) % 5000 = r.val
      omega
  right_inv := by
    intro n
    refine Fin.ext ?_
    show n.val / 5000 * 5000 + 1 * (n.val % 5000) = n.val
    omega

/-- Summing over the tiles and over each tile's nodes is summing over all the nodes. -/
theorem sum_tiles (F : Fin 50000 → EReal) :
    ∑ t : Fin 10, ∑ r : Fin 5000, F (tileNode t r) = ∑ n : Fin 50000, F n := by
  rw [← Fintype.sum_prod_type']
  exact Fintype.sum_equiv tileEquiv (fun p => F (tileNode p.1 p.2)) F (fun _ => rfl)

/-- Adding the tiles' 0/1-matrix products one after the other gives, for each graph, the sum of its nodes' rows
    (no finiteness needed: the factors are 0 and 1). -/
theorem tileAcc_last (seg : Fin 50000 → ℤ) (h : Fin 50000 → Fin 256 → EReal) (g : Fin 128) (j : Fin 256) :
    tileAcc (fun n g' => if seg n = (g'.val : ℤ) then (1 : EReal) else 0) h 9 (by omega) g j = poolSum seg h g j := by
  rw [tileAcc_eq_sum, poolSum]
  refine congrArg (fun s => (0 : EReal) + s) ?_
  rw [Finset.sum_filter]
  refine Eq.trans ?_ ((sum_tiles (fun n => (if seg n = (g.val : ℤ) then (1 : EReal) else 0) * h n j)).trans ?_)
  · rfl
  · refine Finset.sum_congr rfl fun n _ => ?_
    by_cases hc : seg n = (g.val : ℤ)
    · rw [if_pos hc, if_pos hc, one_mul]
    · rw [if_neg hc, if_neg hc, zero_mul]

end Cert.Gcn2

end
-- ==== Proof.Bridge.lean ====
/-
  The two programs' results agree when the float inputs are real numbers: each graph-convolution layer by
  exchanging the sum along the edges with the product by the weight matrix (the first layer's output is real, so the
  second layer's exchange applies too), and the pooled sums because adding the tiles' 0/1-matrix products one after
  the other adds, for each graph, the rows of its nodes.
-/
import proofs.«413475_j11897059410286_1_alg».proof.Proof.SpecIdx
import proofs.«413475_j11897059410286_1_alg».proof.Proof.Algebra

noncomputable section

namespace Cert.Gcn2

open Idealize.ShloMosaic Idealize.ShloMosaic.ValueIdx

theorem kerOut_eq_refOut (nidx a2 : (⟨1, ![800000]⟩ : Shape).Idx → BitVec 32) (a4 : (⟨1, ![50000]⟩ : Shape).Idx → BitVec 32)
    (x : (⟨2, ![50000, 128]⟩ : Shape).Idx → EReal) (w : (⟨1, ![800000]⟩ : Shape).Idx → EReal)
    (W1 : (⟨2, ![128, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wd : (⟨2, ![256, 256]⟩ : Shape).Idx → EReal) (bd : (⟨1, ![256]⟩ : Shape).Idx → EReal)
    (Wo : (⟨2, ![256, 1]⟩ : Shape).Idx → EReal) (bo : (⟨1, ![1]⟩ : Shape).Idx → EReal)
    (hx : ∀ i, IsReal (x i)) (hw : ∀ i, IsReal (w i)) (hW1 : ∀ i, IsReal (W1 i)) (hb1 : ∀ i, IsReal (b1 i))
    (hW2 : ∀ i, IsReal (W2 i)) (g : Fin 128) :
    kerOut nidx a2 a4 x w W1 b1 W2 b2 Wd bd Wo bo g = refOut nidx a2 a4 x w W1 b1 W2 b2 Wd bd Wo bo g := by
  have h1 : kerH1 nidx a2 x w W1 b1 = refH1 nidx a2 x w W1 b1 := by
    funext n j
    exact layerK_eq_layerR _ _ _ _ _ _ (fun s k => hx _) (fun e => hw _) (fun k j => hW1 _) n j
  have h1r : ∀ n j, IsReal (kerH1 nidx a2 x w W1 b1 n j) := fun n j =>
    layerK_isReal _ _ _ _ _ _ (fun s k => hx _) (fun e => hw _) (fun k j => hW1 _) (fun j => hb1 _) n j
  have h2 : kerH2 nidx a2 x w W1 b1 W2 b2 = refH2 nidx a2 x w W1 b1 W2 b2 := by
    funext n j
    unfold kerH2 refH2
    rw [← h1]
    exact layerK_eq_layerR _ _ _ _ _ _ h1r (fun e => hw _) (fun k j => hW2 _) n j
  unfold kerOut refOut
  rw [h2]
  refine congrArg (fun acc => headF acc (c2 Wd) (c1 bd) (fun k => Wo (ix2 k (0 : Fin 1))) (bo (ix1 (0 : Fin 1))) g) ?_
  funext g' j
  show tileAcc (fun n g'' => if segOf a4 n = (g''.val : ℤ) then (1 : EReal) else 0) (refH2 nidx a2 x w W1 b1 W2 b2) 9 (by omega) g' j = _
  exact tileAcc_last (segOf a4) _ g' j

end Cert.Gcn2

end
-- ==== Proof.Finite.lean ====
/-
  The precondition, read back: every float input entry is a real number.

  For each of the ten float arguments the precondition computes "every entry's absolute value is below plus
  infinity" as a reduction by `and` of the entrywise comparisons, and it conjoins the ten bits. If the result is 1
  then each conjunct is 1, so each comparison is 1 at every entry. On the extended reals the absolute value of `x` is
  `max x (-x)`, and the bit pattern 0x7F800000 denotes `⊤`; from `max x (-x) < ⊤` the entry `x` is neither `⊤` nor `⊥`,
  hence it is (the image of) a real number.
-/
import proofs.«413475_j11897059410286_1_alg».proof.Pre_finite_inputs
import proofs.«413475_j11897059410286_1_alg».proof.Proof.Spec
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

namespace Cert.Gcn2

open Idealize.ShloMosaic Idealize.ShloMosaic.ValueIdx

/-- The f32 pattern `0x7F800000` is plus infinity. -/
theorem ofBits_inf_f32 : Ideal.ofBits .f32 0x7F800000#32 = (⊤ : EReal) := by
  simp [Ideal.ofBits, Ideal.ieee]

/-- A one-bit word made from a Boolean is 1 exactly when the Boolean is true. -/
theorem ofBool_eq_one_iff {b : Bool} : BitVec.ofBool b = 1#1 ↔ b = true := by cases b <;> decide

/-- An extended real whose absolute value `max x (-x)` is below `⊤` is a real number. -/
theorem isReal_of_abs_lt_top (x : EReal) (h : max x (-x) < ⊤) : IsReal x := by
  induction x using EReal.rec with
  | bot => simp at h
  | top => simp at h
  | coe r => exact ⟨r, rfl⟩

/-- If `|x| < +∞` holds at every entry of a float array (as the comparison with the broadcast pattern of plus
infinity), then every entry is a real number. -/
theorem isReal_of_abs_lt {s : Shape} (x : FVec Ideal s .f32) (hb : (⟨0, ![]⟩ : Shape).BroadcastsInDim s ![])
    (h : ∀ i, cmpf .olt (Host.absf x) (broadcastInDim s ![] hb (constant (F := Ideal) ⟨0, ![]⟩ .f32 0x7F800000#32)) i = 1#1) :
    ∀ i, IsReal (x i) := by
  intro i
  have hi := h i
  rw [cmpf_apply, broadcastInDim_scalar_apply, constant_apply, ofBits_inf_f32] at hi
  have h2 : Ideal.cmp .olt (max (x i) (-(x i))) (⊤ : EReal) = 1#1 := hi
  have hlt : max (x i) (-(x i)) < (⊤ : EReal) := by
    simpa only [Ideal.cmp, ofBool_eq_one_iff, decide_eq_true_eq] using h2
  exact isReal_of_abs_lt_top (x i) hlt

/-- The rank-0 shape has one index. -/
instance subsingleton_scalar_idx : Subsingleton Cert.Pre_finite_inputs.S_.Idx :=
  ⟨fun a b => funext fun d => d.elim0⟩

/-- The conjunction of two one-bit arrays, read at an index. -/
theorem andi_apply_idx {s : Shape} {w : Nat} (x y : IVec s w) (i : s.Idx) : andi x y i = IntOp.andi (x i) (y i) := rfl

/-- The precondition's result 1 says every entry of every float argument is a real number. -/
theorem finite_of_pre [hF : Cert.Pre_finite_inputs.Facts]
    (a0 : FVec Ideal Cert.Pre_finite_inputs.S50000x128 .f32) (a1 a2 : IVec Cert.Pre_finite_inputs.S800000 32) (a3 : FVec Ideal Cert.Pre_finite_inputs.S800000 .f32) (a4 : IVec Cert.Pre_finite_inputs.S50000 32)
    (a5 : FVec Ideal Cert.Pre_finite_inputs.S128x256 .f32) (a6 : FVec Ideal Cert.Pre_finite_inputs.S256 .f32) (a7 : FVec Ideal Cert.Pre_finite_inputs.S256x256 .f32) (a8 : FVec Ideal Cert.Pre_finite_inputs.S256 .f32)
    (a9 : FVec Ideal Cert.Pre_finite_inputs.S256x256 .f32) (a10 : FVec Ideal Cert.Pre_finite_inputs.S256 .f32) (a11 : FVec Ideal Cert.Pre_finite_inputs.S256x1 .f32) (a12 : FVec Ideal Cert.Pre_finite_inputs.S1 .f32)
    (h : Cert.Pre_finite_inputs.fn (F := Ideal) a0 a1 a2 a3 a4 a5 a6 a7 a8 a9 a10 a11 a12 = fun _ => 1#1) :
    (∀ i, IsReal (a0 i)) ∧ (∀ i, IsReal (a3 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) := by
  have h0 := congrFun h ValueIdx.ix0
  dsimp only [Cert.Pre_finite_inputs.fn, Cert.Pre_finite_inputs.fn_part1, Cert.Pre_finite_inputs.fn_part2] at h0
  simp only [andi_apply_idx, IntOp.andi_eq_one] at h0
  obtain ⟨⟨⟨⟨⟨⟨⟨⟨⟨h_0, h_3⟩, h_5⟩, h_6⟩, h_7⟩, h_8⟩, h_9⟩, h_10⟩, h_11⟩, h_12⟩ := h0
  exact ⟨isReal_of_abs_lt a0 _ (Host.reduce_andi_all _ _ _ _ _ h_0),
    isReal_of_abs_lt a3 _ (Host.reduce_andi_all _ _ _ _ _ h_3),
    isReal_of_abs_lt a5 _ (Host.reduce_andi_all _ _ _ _ _ h_5),
    isReal_of_abs_lt a6 _ (Host.reduce_andi_all _ _ _ _ _ h_6),
    isReal_of_abs_lt a7 _ (Host.reduce_andi_all _ _ _ _ _ h_7),
    isReal_of_abs_lt a8 _ (Host.reduce_andi_all _ _ _ _ _ h_8),
    isReal_of_abs_lt a9 _ (Host.reduce_andi_all _ _ _ _ _ h_9),
    isReal_of_abs_lt a10 _ (Host.reduce_andi_all _ _ _ _ _ h_10),
    isReal_of_abs_lt a11 _ (Host.reduce_andi_all _ _ _ _ _ h_11),
    isReal_of_abs_lt a12 _ (Host.reduce_andi_all _ _ _ _ _ h_12)⟩

end Cert.Gcn2
-- ==== Proof.lean ====
/-
  The claim: a two-layer graph convolution with a pooled dense head, computed with each layer's aggregation done
  BEFORE its matrix product, against the plain version that multiplies first and aggregates after.

  Frames: the kernel program, at the word level and at the ideal values, runs its three launches among its host
  stretches and leaves every argument array as launched; the reference is a host program whose run is read back
  operation by operation. Values: at the ideal values the kernel program's result array is the dense head applied to
  the tile-by-tile pooled sums of the second layer, each layer being "sum the looked-up, weighted rows along the
  edges, then multiply by the weights, add the bias, clip at zero"; the reference's is the same head on the per-graph
  sums of "multiply, then sum along the edges". With every float input a real number (the precondition) the two
  agree: a finite sum commutes with a product by a fixed real factor, and adding 0/1-weighted rows tile by tile adds
  each graph's rows.
-/
import proofs.«413475_j11897059410286_1_alg».proof.Defs
import proofs.«413475_j11897059410286_1_alg».proof.Proof.Gen.Kernel
import proofs.«413475_j11897059410286_1_alg».proof.Proof.Gen.KernelIdeal
import proofs.«413475_j11897059410286_1_alg».proof.Proof.Gen.ReferenceIdeal
import proofs.«413475_j11897059410286_1_alg».proof.Proof.Gen.Pre_finite_inputs
import proofs.«413475_j11897059410286_1_alg».proof.Proof.K.Run
import proofs.«413475_j11897059410286_1_alg».proof.Proof.KI.Run
import proofs.«413475_j11897059410286_1_alg».proof.Proof.KI.KerValue
import proofs.«413475_j11897059410286_1_alg».proof.Proof.RefValue
import proofs.«413475_j11897059410286_1_alg».proof.Proof.Bridge
import proofs.«413475_j11897059410286_1_alg».proof.Proof.Finite

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result array: the kernel program's read through its launches, the reference's
    through its operations, joined by the layer exchange and the pooled-sum identity on real inputs. -/
theorem algebraic : Cert.algebraic_KernelIdeal_ReferenceIdeal := by
  intro m ρ m' ρ' hpre hagree
  refine ⟨fun c => (Cert.KernelIdeal.Hand.dat2 (Cert.KernelIdeal.Hand.V5 m ρ) c).arrAt 6 Cert.KernelIdeal.cfg2.N,
    Cert.KernelIdeal.Hand.run_value m ρ, ?_⟩
  refine (θ_run Cert.ReferenceIdeal.defs _ _).mono (fun r h c => ⟨(h c).1.trans ?_, (h c).2⟩)
    (Cert.ReferenceIdeal.RefValue.run_result m' ρ')
  funext i
  obtain ⟨g, z, rfl⟩ : ∃ (g : Fin 128) (z : Fin 1), i = ix2 g z := ⟨i 0, i 1, eq_ix2 i⟩
  obtain rfl : z = 0 := Subsingleton.elim _ _
  refine (Cert.ReferenceIdeal.RefValue.result_apply _ _ _ _ _ _ _ _ _ _ _ _ _ g).trans ?_
  refine Eq.trans ?_ (Cert.KernelIdeal.Hand.ker_value m ρ c g).symm
  obtain ⟨h0, h1, h2, h3, h4, h5, h6, h7, h8, h9, h10, h11, h12⟩ := hagree c
  rw [h0, h1, h2, h3, h4, h5, h6, h7, h8, h9, h10, h11, h12]
  obtain ⟨r0, r3, r5, r6, r7, -⟩ := Cert.Gcn2.finite_of_pre _ _ _ _ _ _ _ _ _ _ _ _ _ (hpre c)
  exact (Cert.Gcn2.kerOut_eq_refOut _ _ _ _ _ _ _ _ _ _ _ _ _ r0 r3 r5 r6 r7 g).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
